-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S7001x512 : Shape := ⟨2, ![7001, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S7001x512 : S_.BroadcastsInDim S7001x512 (![] : Fin 0 → Fin S7001x512.rank)
  reducesTo_S7001x512_S_d0_1 : S7001x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4096x512 .f32) (main_arg1 : FVec F S7001x512 .f32) (main_arg2 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S7001x512 .f32 := Host.absf main_arg1
  let main_cst_0 : FVec F S_ .f32 := constant S_ .f32 0x7F800000#32
  let main_v5 : FVec F S7001x512 .f32 := broadcastInDim S7001x512 ![] bcast_S_S7001x512 main_cst_0
  let main_v6 : IVec S7001x512 1 := cmpf .olt main_v4 main_v5
  let main_c_1 : IVec S_ 1 := constantI S_ 1 1#1
  let main_v7 : IVec S_ 1 := (fun x v => Host.reduce IntOp.andi x v reducesTo_S7001x512_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg2 main_v9
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v8 main_v11
  let main_c_4 : IVec S_ 32 := constantI S_ 32 7001#32
  let main_v13 : IVec S4096 32 := broadcastInDim S4096 ![] bcast_S_S4096 main_c_4
  let main_v14 : IVec S4096 1 := cmpi .slt main_arg2 main_v13
  let main_c_5 : IVec S_ 1 := constantI S_ 1 1#1
  let main_v15 : IVec S_ 1 := (fun x v => Host.reduce IntOp.andi x v reducesTo_S4096_S_d0 h_S_) main_v14 main_c_5
  fn_part1 (F := F) main_v12 main_v15
-- ==== Kernel.lean ====
abbrev S4096x512 : Shape := ⟨2, ![4096, 512]⟩
abbrev S7001x512 : Shape := ⟨2, ![7001, 512]⟩
abbrev S4096 : Shape := ⟨1, ![4096]⟩
abbrev S_ : Shape := ⟨0, ![]⟩
abbrev S7168x512 : Shape := ⟨2, ![7168, 512]⟩
abbrev S4096x1 : Shape := ⟨2, ![4096, 1]⟩
abbrev S1024x512 : Shape := ⟨2, ![1024, 512]⟩
abbrev S896x512 : Shape := ⟨2, ![896, 512]⟩
abbrev S1024x1 : Shape := ⟨2, ![1024, 1]⟩
abbrev S512x896 : Shape := ⟨2, ![512, 896]⟩
abbrev S1024x896 : Shape := ⟨2, ![1024, 896]⟩
abbrev S1024 : Shape := ⟨1, ![1024]⟩
abbrev S7001 : Shape := ⟨1, ![7001]⟩

abbrev nBuf : Space → Nat
  | .hbm => 35
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S7001x512, .f32⟩
  | .hbm, ⟨2, _⟩ => ⟨S4096, .i32⟩
  | .hbm, ⟨3, _⟩ => ⟨S4096x512, .bf16⟩
  | .hbm, ⟨4, _⟩ => ⟨S7001x512, .bf16⟩
  | .hbm, ⟨5, _⟩ => ⟨S_, .i32⟩
  | .hbm, ⟨6, _⟩ => ⟨S_, .bf16⟩
  | .hbm, ⟨7, _⟩ => ⟨S7168x512, .bf16⟩
  | .hbm, ⟨8, _⟩ => ⟨S4096x1, .i32⟩
  | .hbm, ⟨9, _⟩ => ⟨S4096x1, .f32⟩
  | .hbm, ⟨10, _⟩ => ⟨S4096x512, .f32⟩
  | .hbm, ⟨11, _⟩ => ⟨S_, .f32⟩
  | .hbm, ⟨12, _⟩ => ⟨S4096, .f32⟩
  | .hbm, ⟨13, _⟩ => ⟨S7001x512, .f32⟩
  | .hbm, ⟨14, _⟩ => ⟨S_, .f32⟩
  | .hbm, ⟨15, _⟩ => ⟨S7001, .f32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096x1, .i32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S896x512, .bf16⟩
  | .local _ .vmem, ⟨3, _⟩ => ⟨S896x512, .bf16⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_12 : BitVec 32 := 0#32
  let v28 : BitVec 1 := Scalar.cmpi .ne v27 c0_i32_12
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S896x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  pads_S7001x512_S7168x512_01670_000 : S7001x512.Pads (![0, 0] : Fin 2 → Nat) ![167, 0] ![0, 0] S7168x512
  h_S_ : 0 < S_.numel
  bcast_S4096_S4096x1_0 : S4096.BroadcastsInDim S4096x1 (![0] : Fin 1 → Fin S4096x1.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S896x512_S896x512_0_0 : ∀ a, (![0, 0] : Fin 2 → Nat) a + S896x512.size a ≤ S896x512.size a
  h_S896x512 : 0 < S896x512.numel
  shapeCasts_S896x512_S896x512 : S896x512.ShapeCasts S896x512
  transposes_S896x512_p1_0_S512x896 : S896x512.Transposes [1, 0] S512x896
  iota_S1024x896_d1_w32 : S1024x896.Iotas .tc 32 [1]
  broadcasts_S1024x1_S1024x896 : S1024x1.Broadcasts S1024x896
  reduces_S1024x896_S1024 : S1024x896.Reduces [1] S1024
  shapeCasts_S1024_S1024x1 : S1024.ShapeCasts S1024x1
  reducesTo_S4096x512_S4096_d1 : S4096x512.ReducesTo [1] S4096
  reducesTo_S7001x512_S7001_d1 : S7001x512.ReducesTo [1] S7001
  bcast_S_S4096 : S_.BroadcastsInDim S4096 (![] : Fin 0 → Fin S4096.rank)
  shapeCasts_S4096x1_S4096 : S4096x1.ShapeCasts S4096
  reducesTo_S4096_S_d0 : S4096.ReducesTo [0] S_
  dot_S1024x512_S512x896_S1024x896_1_0_0_1_n_n_wf : DotDims.WF S1024x512 S512x896 S1024x896 [1] [0] [0] [1] [] []
  gather_S7001_S4096x1_S4096_n_0_n_n_0_1_1_wf : GatherDims.WF S7001 S4096x1 S4096 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .bf16 = 32 ∨ (Rect.block (s := S4096x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S896x512.size a ≤ S7168x512.size a
  hwx0_1 : ∀ i : grid0.Coords, EltTy.bits .bf16 = 32 ∨ (Rect.block (s := S7168x512) S896x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)

variable [Facts₀]

def dot_S1024x512_S512x896_S1024x896_1_0_0_1_n_n : DotDims S1024x512 S512x896 S1024x896 where
  lhsContracting := [1]
  rhsContracting := [0]
  lhsNonContracting := [0]
  rhsNonContracting := [1]
  lhsBatch := []
  rhsBatch := []
  wf := dot_S1024x512_S512x896_S1024x896_1_0_0_1_n_n_wf
def gather_S7001_S4096x1_S4096_n_0_n_n_0_1_1 : GatherDims S7001 S4096x1 S4096 where
  offsetDims := []
  collapsedSliceDims := [0]
  operandBatchingDims := []
  startIndicesBatchingDims := []
  startIndexMap := [0]
  indexVectorDim := 1
  sliceSizes := ![1]
  wf := gather_S7001_S4096x1_S4096_n_0_n_n_0_1_1_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S896x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x512 : Shape := ⟨2, ![4096, 512]⟩
abbrev S7001x512 : Shape := ⟨2, ![7001, 512]⟩
abbrev S4096 : Shape := ⟨1, ![4096]⟩
abbrev S_ : Shape := ⟨0, ![]⟩
abbrev S4096x1 : Shape := ⟨2, ![4096, 1]⟩
abbrev S7001 : Shape := ⟨1, ![7001]⟩
abbrev S1x7001 : Shape := ⟨2, ![1, 7001]⟩
abbrev S4096x7001 : Shape := ⟨2, ![4096, 7001]⟩
abbrev S512x7001 : Shape := ⟨2, ![512, 7001]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 47
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S7001x512, .f32⟩
  | .hbm, ⟨2, _⟩ => ⟨S4096, .i32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S7001x512, .f32⟩
  | .hbm, ⟨8, _⟩ => ⟨S_, .f32⟩
  | .hbm, ⟨9, _⟩ => ⟨S7001, .f32⟩
  | .hbm, ⟨10, _⟩ => ⟨S1x7001, .f32⟩
  | .hbm, ⟨11, _⟩ => ⟨S4096x7001, .f32⟩
  | .hbm, ⟨12, _⟩ => ⟨S4096x7001, .f32⟩
  | .hbm, ⟨13, _⟩ => ⟨S4096x7001, .f32⟩
  | .hbm, ⟨14, _⟩ => ⟨S512x7001, .f32⟩
  | .hbm, ⟨15, _⟩ => ⟨S4096x7001, .f32⟩
  | .hbm, ⟨16, _⟩ => ⟨S_, .f32⟩
  | .hbm, ⟨17, _⟩ => ⟨S4096x7001, .f32⟩
  | .hbm, ⟨18, _⟩ => ⟨S4096x7001, .f32⟩
  | .hbm, ⟨19, _⟩ => ⟨S4096x7001, .f32⟩
  | .hbm, ⟨20, _⟩ => ⟨S4096x1, .i32⟩
  | .hbm, ⟨21, _⟩ => ⟨S_, .i32⟩
  | .hbm, ⟨22, _⟩ => ⟨S4096x1, .i32⟩
  | .hbm, ⟨23, _⟩ => ⟨S4096x1, .i1⟩
  | .hbm, ⟨24, _⟩ => ⟨S_, .i32⟩
  | .hbm, ⟨25, _⟩ => ⟨S4096x1, .i32⟩
  | .hbm, ⟨26, _⟩ => ⟨S4096x1, .i32⟩
  | .hbm, ⟨27, _⟩ => ⟨S4096x1, .i32⟩
  | .hbm, ⟨28, _⟩ => ⟨S4096x1x1, .i32⟩
  | .hbm, ⟨29, _⟩ => ⟨S1, .i32⟩
  | .hbm, ⟨30, _⟩ => ⟨S_, .i32⟩
  | .hbm, ⟨31, _⟩ => ⟨S4096x1x1, .i32⟩
  | .hbm, ⟨32, _⟩ => ⟨S4096x1x1, .i1⟩
  | .hbm, ⟨33, _⟩ => ⟨S1x1x1, .i32⟩
  | .hbm, ⟨34, _⟩ => ⟨S4096x1x1, .i32⟩
  | .hbm, ⟨35, _⟩ => ⟨S4096x1x1, .i1⟩
  | .hbm, ⟨36, _⟩ => ⟨S4096x1x1, .i1⟩
  | .hbm, ⟨37, _⟩ => ⟨S_, .i1⟩
  | .hbm, ⟨38, _⟩ => ⟨S4096x1, .i1⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_cst_3 : Ref sig .tc := ⟨.hbm, 45, rfl⟩
abbrev main_v17 : Ref sig .tc := ⟨.hbm, 46, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S7001x512_S7001_d1 : S7001x512.ReducesTo [1] S7001
  bcast_S7001_S1x7001_1 : S7001.BroadcastsInDim S1x7001 (![1] : Fin 1 → Fin S1x7001.rank)
  bcast_S4096x1_S4096x7001_0_1 : S4096x1.BroadcastsInDim S4096x7001 (![0, 1] : Fin 2 → Fin S4096x7001.rank)
  bcast_S1x7001_S4096x7001_0_1 : S1x7001.BroadcastsInDim S4096x7001 (![0, 1] : Fin 2 → Fin S4096x7001.rank)
  transposes_S7001x512_S512x7001_1_0 : S7001x512.Transposes [1, 0] S512x7001
  bcast_S_S4096x7001 : S_.BroadcastsInDim S4096x7001 (![] : Fin 0 → Fin S4096x7001.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  dot_S4096x512_S512x7001_S4096x7001_1_0_0_1_n_n_wf : DotDims.WF S4096x512 S512x7001 S4096x7001 [1] [0] [0] [1] [] []
  gather_S4096x7001_S4096x1x1_S4096x1_n_1_0_0_1_2_11_wf : GatherDims.WF S4096x7001 S4096x1x1 S4096x1 [] [1] [0] [1] [0] 2 ![1, 1]

variable [Facts₀]

def dot_S4096x512_S512x7001_S4096x7001_1_0_0_1_n_n : DotDims S4096x512 S512x7001 S4096x7001 where
  lhsContracting := [1]
  rhsContracting := [0]
  lhsNonContracting := [0]
  rhsNonContracting := [1]
  lhsBatch := []
  rhsBatch := []
  wf := dot_S4096x512_S512x7001_S4096x7001_1_0_0_1_n_n_wf
def gather_S4096x7001_S4096x1x1_S4096x1_n_1_0_0_1_2_11 : GatherDims S4096x7001 S4096x1x1 S4096x1 where
  offsetDims := []
  collapsedSliceDims := [1]
  operandBatchingDims := [0]
  startIndicesBatchingDims := [0]
  startIndexMap := [1]
  indexVectorDim := 2
  sliceSizes := ![1, 1]
  wf := gather_S4096x7001_S4096x1x1_S4096x1_n_1_0_0_1_2_11_wf

class Facts : Prop extends Facts₀ where

variable [Facts]
-- ==== Proof.Spec.lean ====
/-
  The centre loss as ONE function of the inputs, over the extended reals.

  For a batch row R with label word w the class is L = cls w (the word read signed and clamped into [0, 7000]).
  The squared distance of the row to its own centre is spelt expanded,
      dist R L = (‖x_R‖² + ‖c_L‖²) − 2 · ⟨x_R, c_L⟩,
  each squared norm a sum from the zero word, and the loss is the mean of dist R (cls (lab R)) over the 4096 rows:
  a sum from the zero word divided by the word 4096.0.  The float literals stay as the words the programs carry
  (0.0, 2.0, 4096.0): both programs hold the same words, so none is ever evaluated.
-/
import Idealize.ShloMosaic.PureOps.Ideal
import Idealize.ShloMosaic.Lib.ValueIdx
import Idealize.ShloMosaic.Lib.ValueIdxRank1

noncomputable section

namespace Cert.CenterLoss

open Idealize.ShloMosaic Idealize.ShloMosaic.ValueIdx

/-- The class a label word names: the word read signed, clamped into [0, 7000]. -/
def cls (w : BitVec 32) : Fin 7001 := ⟨min w.toInt.toNat 7000, by omega⟩

/-- A label word below 7001 (unsigned) is non-negative as a signed word, and names the class of its own value. -/
theorem cls_val {w : BitVec 32} (h : w.toNat < 7001) : (cls w).val = w.toNat := by
  have hi : w.toInt = (w.toNat : Int) := by
    rw [BitVec.toInt_eq_toNat_cond]
    have : 2 * w.toNat < 4294967296 := by omega
    simp [this]
  show min w.toInt.toNat 7000 = w.toNat
  rw [hi, Int.toNat_natCast]
  omega

/-- The labels of a batch all lie in the class range [0, 7001). -/
def InRange (lab : (⟨1, ![4096]⟩ : Shape).Idx → BitVec 32) : Prop :=
  ∀ R : Fin 4096, (lab (ix1 R)).toNat < 7001

/-- ⟨x_R, c_L⟩: the inner product of batch row R with centre L over the 512 features. -/
def dotRow (x : (⟨2, ![4096, 512]⟩ : Shape).Idx → EReal) (c : (⟨2, ![7001, 512]⟩ : Shape).Idx → EReal)
    (R : Fin 4096) (L : Fin 7001) : EReal :=
  ∑ d : Fin 512, x (ix2 R d) * c (ix2 L d)

/-- ‖x_R‖², summed from the zero word. -/
def sqX (x : (⟨2, ![4096, 512]⟩ : Shape).Idx → EReal) (R : Fin 4096) : EReal :=
  Ideal.ofBits .f32 0x00000000#32 + ∑ d : Fin 512, x (ix2 R d) * x (ix2 R d)

/-- ‖c_L‖², summed from the zero word. -/
def sqC (c : (⟨2, ![7001, 512]⟩ : Shape).Idx → EReal) (L : Fin 7001) : EReal :=
  Ideal.ofBits .f32 0x00000000#32 + ∑ d : Fin 512, c (ix2 L d) * c (ix2 L d)

/-- The expanded squared distance of row R to centre L: (‖x_R‖² + ‖c_L‖²) − 2 · ⟨x_R, c_L⟩. -/
def dist (x : (⟨2, ![4096, 512]⟩ : Shape).Idx → EReal) (c : (⟨2, ![7001, 512]⟩ : Shape).Idx → EReal)
    (R : Fin 4096) (L : Fin 7001) : EReal :=
  (sqX x R + sqC c L) - Ideal.ofBits .f32 0x40000000#32 * dotRow x c R L

/-- The centre loss: the mean over the batch of each row's distance to the centre its label names. -/
def loss (x : (⟨2, ![4096, 512]⟩ : Shape).Idx → EReal) (c : (⟨2, ![7001, 512]⟩ : Shape).Idx → EReal)
    (lab : (⟨1, ![4096]⟩ : Shape).Idx → BitVec 32) : (⟨0, ![]⟩ : Shape).Idx → EReal := fun _ =>
  Ideal.div (Ideal.ofBits .f32 0x00000000#32 + ∑ R : Fin 4096, dist x c R (cls (lab (ix1 R))))
    (Ideal.ofBits .f32 0x45800000#32)

end Cert.CenterLoss

end
-- ==== Proof.Labels.lean ====
/-
  The label range, read off the precondition.

  The precondition is a conjunction of four `all`s: every entry of x finite, every entry of c finite, every label
  ≥ 0 (signed), every label < 7001 (signed).  Only the last two are used: a word that is non-negative as a signed
  word reads the same unsigned, so each label's unsigned value is below 7001.
-/
import proofs.«401125_j76209899700452_2_alg».proof.Pre_finite_inputs
import proofs.«401125_j76209899700452_2_alg».proof.Proof.Gen.Pre_finite_inputs
import proofs.«401125_j76209899700452_2_alg».proof.Proof.Spec
import Idealize.ShloMosaic.Lib.ReduceAll
import Idealize.ShloMosaic.Lib.StableHlo.Predicate

noncomputable section

namespace Cert.CenterLoss

open Idealize.ShloMosaic Idealize.ShloMosaic.ValueIdx Cert.Pre_finite_inputs Cert.Pre_finite_inputs.Facts

instance subsingleton_scalarIdx : Subsingleton Cert.Pre_finite_inputs.S_.Idx := ⟨fun a b => funext fun d => d.elim0⟩

/-- Where the precondition holds, every label lies in the class range. -/
theorem inRange_of_pre {F : FTy → Type} [FloatOps F] (x : FVec F S4096x512 .f32) (c : FVec F S7001x512 .f32)
    (lab : IVec S4096 32) (h : Cert.Pre_finite_inputs.fn (F := F) x c lab = fun _ => 1#1) : InRange lab := by
  have h0 := congrFun h ValueIdx.ix0
  dsimp only [Cert.Pre_finite_inputs.fn, Cert.Pre_finite_inputs.fn_part1] at h0
  change IntOp.andi (IntOp.andi (IntOp.andi _ _) _) _ = 1#1 at h0
  obtain ⟨h012, h15⟩ := IntOp.andi_eq_one.1 h0
  obtain ⟨_, h11⟩ := IntOp.andi_eq_one.1 h012
  intro R
  have hge := Host.reduce_andi_all _ _ reducesTo_S4096_S_d0 h_S_ _ h11 (ix1 R)
  have hlt := Host.reduce_andi_all _ _ reducesTo_S4096_S_d0 h_S_ _ h15 (ix1 R)
  change IntOp.cmpi .sge (lab (ix1 R)) _ = 1#1 at hge
  change IntOp.cmpi .slt (lab (ix1 R)) _ = 1#1 at hlt
  rw [IntOp.cmpi_sge, StableHlo.Predicate.bcast_scalar bcast_S_S4096 h_S_] at hge
  rw [IntOp.cmpi_slt, StableHlo.Predicate.bcast_scalar bcast_S_S4096 h_S_] at hlt
  change (0#32 : BitVec 32).toInt ≤ _ at hge
  change _ < (7001#32 : BitVec 32).toInt at hlt
  have e0 : (0#32 : BitVec 32).toInt = 0 := by decide
  have e1 : (7001#32 : BitVec 32).toInt = 7001 := by decide
  rw [e0] at hge
  rw [e1] at hlt
  have hc := BitVec.toInt_eq_toNat_cond (lab (ix1 R))
  have hb := (lab (ix1 R)).isLt
  split at hc <;> omega

end Cert.CenterLoss

end
-- ==== Proof.Pieces.lean ====
/-
  What each control case of the body leaves, as values.

  The scratch column is the running cross term.  At a first class tile (case A) the body zeroes it and then adds the
  tile's contribution: it ends at the step function of the zero column.  At a later tile (cases B, C) it adds the tile's
  contribution to what the tile before left.  At the last tile (case C) the output block is a copy of the scratch.
-/
import proofs.«401125_j76209899700452_2_alg».proof.Proof.Gen.KernelIdeal.Frame
import Idealize.ShloMosaic.Lib.Pipeline.Value
import Idealize.ShloMosaic.Lib.Tactic

noncomputable section

namespace Cert.KernelIdeal.FrameValue

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz : (![0, 0] : Fin 2 → Nat) = fun _ => 0 := funext fun a => by fin_cases a <;> rfl

/-- The zero column the first tile stores. -/
abbrev zeroCol : FVec F S1024x1 .f32 := k0_pay1 (F := F)

/-- Case A: zero the scratch, then one step from the zero column. -/
theorem scratch_A (c : Dev nD) (i : grid0.Coords) (arg2 : Memref sig .tc .vmem S1024x512 .bf16) (harg2 : arg2.IsWhole) (arg3 : Memref sig .tc .vmem S896x512 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (hc0 : cond0_0 i) (hc1 : ¬cond0_1 i)
    (x0 : Vec F S1024x512 .bf16) (x1 : Vec F S896x512 .bf16) (x2 : Vec F S1024x1 .i32) :
    sout0_A_0 c i arg2 harg2 arg3 harg3 arg4 harg4 arg5 harg5 arg6 harg6 hc0 hc1 x0 x1 x2 = k0_pay2 i x0 x1 x2 (zeroCol (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg6.read_unread,
    View.ld_unit_zero (S := S1024x512) hz, View.ld_unit_zero (S := S896x512) hz, View.ld_unit_zero (S := S1024x1) hz]

/-- Case B: one step from what the tile before left. -/
theorem scratch_B (c : Dev nD) (i : grid0.Coords) (arg2 : Memref sig .tc .vmem S1024x512 .bf16) (harg2 : arg2.IsWhole) (arg3 : Memref sig .tc .vmem S896x512 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : ¬cond0_1 i)
    (x0 : Vec F S1024x512 .bf16) (x1 : Vec F S896x512 .bf16) (x2 : Vec F S1024x1 .i32) (xs0 : Vec F S1024x1 .f32) :
    sout0_B_0 c i arg2 harg2 arg3 harg3 arg4 harg4 arg5 harg5 arg6 harg6 hc0 hc1 x0 x1 x2 xs0 = k0_pay2 i x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S1024x1) hz]
  simp only [View.readAt_eq_ld, harg2.read_unread, harg3.read_unread, harg4.read_unread, harg6.read_unread,
    View.ld_unit_zero (S := S1024x512) hz, View.ld_unit_zero (S := S896x512) hz, View.ld_unit_zero (S := S1024x1) hz]

/-- Case C: one step from what the tile before left, in the scratch … -/
theorem scratch_C (c : Dev nD) (i : grid0.Coords) (arg2 : Memref sig .tc .vmem S1024x512 .bf16) (harg2 : arg2.IsWhole) (arg3 : Memref sig .tc .vmem S896x512 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x512 .bf16) (x1 : Vec F S896x512 .bf16) (x2 : Vec F S1024x1 .i32) (xs0 : Vec F S1024x1 .f32) :
    sout0_C_0 c i arg2 harg2 arg3 harg3 arg4 harg4 arg5 harg5 arg6 harg6 hc0 hc1 x0 x1 x2 xs0 = k0_pay2 i x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S1024x1) hz]
  simp only [View.readAt_eq_ld, harg2.read_unread, harg3.read_unread, harg4.read_unread, harg6.read_unread,
    View.ld_unit_zero (S := S1024x512) hz, View.ld_unit_zero (S := S896x512) hz, View.ld_unit_zero (S := S1024x1) hz]

/-- … and the same column copied to the output block. -/
theorem out_C (c : Dev nD) (i : grid0.Coords) (arg2 : Memref sig .tc .vmem S1024x512 .bf16) (harg2 : arg2.IsWhole) (arg3 : Memref sig .tc .vmem S896x512 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (hc0 : ¬cond0_0 i) (hc1 : cond0_1 i)
    (x0 : Vec F S1024x512 .bf16) (x1 : Vec F S896x512 .bf16) (x2 : Vec F S1024x1 .i32) (xs0 : Vec F S1024x1 .f32) :
    out0_C_3 c i arg2 harg2 arg3 harg3 arg4 harg4 arg5 harg5 arg6 harg6 hc0 hc1 x0 x1 x2 xs0 = k0_pay2 i x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S1024x1) hz, View.readCov_unit_zero (S := S1024x1) _ hz]
  simp only [View.readAt_eq_ld, harg2.read_unread, harg3.read_unread, harg4.read_unread, harg6.read_unread,
    View.ld_unit_zero (S := S1024x512) hz, View.ld_unit_zero (S := S896x512) hz, View.ld_unit_zero (S := S1024x1) hz]

end Cert.KernelIdeal.FrameValue

end
-- ==== Proof.Blocks.lean ====
/-
  The input blocks of a grid point, read at an index.

  The grid has 4 batch tiles × 8 class tiles, class tile fastest: point t is batch tile t / 8, class tile t % 8.
  The x window's block at t is rows 1024·(t/8) … of x (the cast to the narrower format is the identity on the
  extended reals); the label window's block is the same rows of the label column; the centre window's block is rows
  896·(t%8) … of the centres padded with zero rows to 7168, which below row 7001 are the centres' own rows.
-/
import proofs.«401125_j76209899700452_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.KernelVsHost
import Idealize.ShloMosaic.Lib.StableHlo.Predicate
import Idealize.ShloMosaic.PureOps.Ideal

noncomputable section

namespace Cert.KernelIdeal.FrameValue

open Cert.KernelIdeal Cert.KernelIdeal.Gen
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ)

/-- The printed index maps and the class-tile coordinate, decided over the grid. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = 0
    ∧ (grid0.coords t (1 : Fin 2)).val = t.val % 8 :=
  (by decide +kernel : ∀ t : Fin grid0.N, _)

/-- Global batch row of local row r at point n. -/
def rowOf (n : ℕ) (hn : n < 32) (r : Fin 1024) : Fin 4096 := ⟨1024 * (n / 8) + r.val, by omega⟩

/-! ## The arrays as the region finds them -/

theorem V_x (c : Dev nD) : (V m c main_v0 : S4096x512.Idx → EReal) = m ((c.tc : Thread nD τ).loc main_arg0) := by
  have e : (V m c main_v0 : S4096x512.Idx → EReal)
      = (truncf (F := Ideal) .bf16 (m ((c.tc : Thread nD τ).loc main_arg0) : FVec Ideal S4096x512 .f32) bitsLt_bf16_f32 : FVec Ideal S4096x512 .bf16) := by
    dsimp only [V, V0]
    simp only [hostOps0, hostOps0_1, hostOps0_2, List.flatten_cons, List.flatten_nil, List.append_nil, List.cons_append,
      List.nil_append]
    after_results
    try rfl
  rw [e]; rfl

theorem V_lab (c : Dev nD) : (V m c main_v3 : S4096x1.Idx → BitVec 32)
    = (broadcastInDim S4096x1 ![0] bcast_S4096_S4096x1_0 (m ((c.tc : Thread nD τ).loc main_arg2) : IVec S4096 32) : IVec S4096x1 32) := by
  dsimp only [V, V0]
  simp only [hostOps0, hostOps0_1, hostOps0_2, List.flatten_cons, List.flatten_nil, List.append_nil, List.cons_append,
    List.nil_append]
  after_results
  try rfl

theorem V_cpad (c : Dev nD) : (V m c main_v2 : S7168x512.Idx → EReal)
    = (pad S7168x512 ![0, 0] ![167, 0] ![0, 0]
        (truncf (F := Ideal) .bf16 (m ((c.tc : Thread nD τ).loc main_arg1) : FVec Ideal S7001x512 .f32) bitsLt_bf16_f32 : FVec Ideal S7001x512 .bf16)
        (sitofp (F := Ideal) .bf16 (constantI S_ 32 0#32) : FVec Ideal S_ .bf16) pads_S7001x512_S7168x512_01670_000 h_S_ : FVec Ideal S7168x512 .bf16) := by
  dsimp only [V, V0]
  simp only [hostOps0, hostOps0_1, hostOps0_2, List.flatten_cons, List.flatten_nil, List.append_nil, List.cons_append,
    List.nil_append]
  after_results
  try rfl

/-! ## The blocks -/

abbrev xblk (c : Dev nD) (t : Fin cfg0.N) : FVec Ideal S1024x512 .bf16 := iblk m c 0 t
abbrev cblk (c : Dev nD) (t : Fin cfg0.N) : FVec Ideal S896x512 .bf16 := iblk m c 1 t
abbrev lblk (c : Dev nD) (t : Fin cfg0.N) : IVec S1024x1 32 := iblk m c 2 t

theorem xblk_apply (c : Dev nD) (t : Fin cfg0.N) (ht : t.val < 32) (r : Fin 1024) (d : Fin 512) :
    xblk m c t (ix2 r d) = m ((c.tc : Thread nD τ).loc main_arg0) (ix2 (rowOf t.val ht r) d) := by
  obtain ⟨e0, e1, -⟩ := idx_facts t
  unfold xblk iblk
  rw [View.read_apply]
  show V m c main_v0 _ = _
  rw [V_x]
  congr 1
  funext a; apply Fin.ext
  match a with
  | ⟨0, _⟩ => show win0_0.index t (0 : Fin 2) * 1024 + 1 * r.val = 1024 * (t.val / 8) + r.val; omega
  | ⟨1, _⟩ => show win0_0.index t (1 : Fin 2) * 512 + 1 * d.val = d.val; omega

theorem lblk_apply (c : Dev nD) (t : Fin cfg0.N) (ht : t.val < 32) (r : Fin 1024) :
    lblk m c t (ix2 r (0 : Fin 1)) = m ((c.tc : Thread nD τ).loc main_arg2) (ix1 (rowOf t.val ht r)) := by
  obtain ⟨-, -, -, -, e0, e1, -⟩ := idx_facts t
  unfold lblk iblk
  rw [View.read_apply]
  show V m c main_v3 _ = _
  rw [V_lab]
  refine (broadcastInDim_apply _ bcast_S4096_S4096x1_0 _ _ (ix1 (rowOf t.val ht r)) fun a => ?_)
  match a with
  | ⟨0, _⟩ => show 1024 * (t.val / 8) + r.val = if (4096 : ℕ) = 1 then 0 else win0_2.index t (0 : Fin 2) * 1024 + 1 * r.val
              rw [if_neg (by decide)]; omega

theorem cblk_apply (c : Dev nD) (t : Fin cfg0.N) (j : Fin 896) (d : Fin 512) (h : 896 * (t.val % 8) + j.val < 7001) :
    cblk m c t (ix2 j d) = m ((c.tc : Thread nD τ).loc main_arg1) (ix2 (⟨896 * (t.val % 8) + j.val, h⟩ : Fin 7001) d) := by
  obtain ⟨-, -, e0, e1, -⟩ := idx_facts t
  unfold cblk iblk
  rw [View.read_apply]
  show V m c main_v2 _ = _
  rw [V_cpad]
  refine (pad_apply_of_inside _ _ _ _ _ pads_S7001x512_S7168x512_01670_000 h_S_ _ (ix2 (⟨896 * (t.val % 8) + j.val, h⟩ : Fin 7001) d) fun a => ?_).trans rfl
  match a with
  | ⟨0, _⟩ => show win0_1.index t (0 : Fin 2) * 896 + 1 * j.val = 0 + (896 * (t.val % 8) + j.val) * (0 + 1); omega
  | ⟨1, _⟩ => show win0_1.index t (1 : Fin 2) * 512 + 1 * d.val = 0 + d.val * (0 + 1); omega

end Cert.KernelIdeal.FrameValue

end
-- ==== Proof.Payload.lean ====
/-
  The kernel body's arithmetic at a row.

  At grid step (·, k) the body holds a batch tile x (1024 rows × 512 features), a centre tile c (896 centres × 512
  features: the classes 896·k … 896·k + 895), the rows' label words and the accumulator column. It forms the 1024 × 896
  tile of inner products S[r, j] = Σ_d x[r, d] · c[j, d] (the product with the transposed centre tile, accumulated from
  zero), keeps S[r, j] where the column counter j equals the row's label word less 896·k (as 32-bit words) and puts the
  zero word elsewhere, sums each row over the 896 columns, and adds the column of row sums to the accumulator.

  Read at (r, 0): every layout step names one operand index (a same-shape cast is the identity; the [1024] → [1024, 1]
  cast keeps the row-major position r; the column broadcast reads (r, 0); the transpose swaps the two coordinates), the
  contraction is re-indexed by its one coordinate, and for a label word w < 7168 and k < 8 nothing wraps, so the word
  equation j = w − 896·k holds exactly when w = 896·k + j as naturals. Hence at most one summand of the row is not the
  fallback zero: the row sum is Σ_d x[r, d] · c[w − 896·k, d] when 896·k ≤ w < 896·k + 896, and 0 otherwise.
-/
import proofs.«401125_j76209899700452_2_alg».proof.Proof.Gen.KernelIdeal.Skeleton
import Idealize.ShloMosaic.Lib.ValueIdx
import Idealize.ShloMosaic.Lib.ValueIdxRank1
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.BodyValue

open Cert.KernelIdeal Cert.KernelIdeal.Gen
open Idealize.ShloMosaic Idealize.ShloMosaic.ValueIdx

/-! ## Layout steps at an index -/

/-- The 1024 row sums viewed as a [1024, 1] column: the entry at (r, 0) is the sum of row r (both sit at row-major
    position r). -/
theorem rowSums_column_apply {α : Type} (v : S1024.Idx → α) (h : S1024.ShapeCasts S1024x1) (r : Fin 1024) (u : Fin 1) :
    shapeCast S1024x1 v h (ix2 r u) = v (ix1 r) :=
  shapeCast_apply v h _ _ (by
    have hu : u.val = 0 := by omega
    rw [Shape.rowMajor_val_one, Shape.rowMajor_val_two]
    show r.val = r.val * 1 + u.val
    rw [hu, Nat.mul_one, Nat.add_zero])

/-- A [1024, 1] column spread over the 896 class columns of the tile: the entry at (r, j) is the column's entry at
    (r, 0). -/
theorem column_spread_apply {α : Type} (w : S1024x1.Idx → α) (h : S1024x1.Broadcasts S1024x896) (r : Fin 1024) (j : Fin 896) :
    broadcastTo S1024x896 w h (ix2 r j) = w (ix2 r (0 : Fin 1)) :=
  broadcastTo_apply w h (ix2 r j) (ix2 r (0 : Fin 1)) fun a => match a with
    | ⟨0, _⟩ => by show r.val = if (1024 : Nat) = 1 then 0 else r.val; rw [if_neg (by decide)]
    | ⟨1, _⟩ => by show 0 = if (1 : Nat) = 1 then 0 else j.val; rw [if_pos rfl]

/-- The column counter of the tile: at (r, j) it is the word of j. -/
theorem column_counter_apply (h : S1024x896.Iotas .tc 32 [1]) (r : Fin 1024) (j : Fin 896) :
    iota .tc S1024x896 32 [1] h (ix2 r j) = BitVec.ofNat 32 j.val :=
  iota_single_apply .tc S1024x896 32 1 h (ix2 r j)

/-- The sum along the 896 class columns of a [1024, 896] tile, read at row r: the sum over j of the entry at (r, j). -/
theorem laneSum_apply (src : FVec Ideal S1024x896 .f32) (h : S1024x896.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ j : Fin 896, src (ix2 r j) := by
  refine (Ideal.multiReduction_add_single src 0x00000000#32 h hφ hacc (ix1 r)).trans ?_
  refine Finset.sum_congr rfl fun j _ => ?_
  exact congrArg src (funext fun a => Fin.ext (by match a with | ⟨0, _⟩ => rfl | ⟨1, _⟩ => rfl))

/-! ## The product of the batch tile with the transposed centre tile -/

/-- The left operand's row coordinate is the output row. -/
theorem lhs_scores_0 (i : S1024x896.Idx) (q : dot_S1024x512_S512x896_S1024x896_1_0_0_1_n_n.contr.Idx) :
    (dot_S1024x512_S512x896_S1024x896_1_0_0_1_n_n.lhsIdx i q 0).val = (i 0).val := by
  unfold DotDims.lhsIdx
  rw [dif_neg (show ¬(0 : Fin S1024x512.rank) ∈ dot_S1024x512_S512x896_S1024x896_1_0_0_1_n_n.lhsBatch by decide), dif_pos (show (0 : Fin S1024x512.rank) ∈ dot_S1024x512_S512x896_S1024x896_1_0_0_1_n_n.lhsNonContracting by decide)]
  rfl
/-- The left operand's feature coordinate is the contraction coordinate. -/
theorem lhs_scores_1 (i : S1024x896.Idx) (q : dot_S1024x512_S512x896_S1024x896_1_0_0_1_n_n.contr.Idx) :
    (dot_S1024x512_S512x896_S1024x896_1_0_0_1_n_n.lhsIdx i q 1).val = (q ⟨0, by decide⟩).val :=
  dot_S1024x512_S512x896_S1024x896_1_0_0_1_n_n.lhsIdx_val_of_single rfl i q
/-- The right operand's feature coordinate is the contraction coordinate. -/
theorem rhs_scores_0 (i : S1024x896.Idx) (q : dot_S1024x512_S512x896_S1024x896_1_0_0_1_n_n.contr.Idx) :
    (dot_S1024x512_S512x896_S1024x896_1_0_0_1_n_n.rhsIdx i q 0).val = (q ⟨0, by decide⟩).val :=
  dot_S1024x512_S512x896_S1024x896_1_0_0_1_n_n.rhsIdx_val_of_single rfl i q
/-- The right operand's column coordinate is the output column. -/
theorem rhs_scores_1 (i : S1024x896.Idx) (q : dot_S1024x512_S512x896_S1024x896_1_0_0_1_n_n.contr.Idx) :
    (dot_S1024x512_S512x896_S1024x896_1_0_0_1_n_n.rhsIdx i q 1).val = (i 1).val := by
  unfold DotDims.rhsIdx
  rw [dif_neg (show ¬(1 : Fin S512x896.rank) ∈ dot_S1024x512_S512x896_S1024x896_1_0_0_1_n_n.rhsBatch by decide), dif_pos (show (1 : Fin S512x896.rank) ∈ dot_S1024x512_S512x896_S1024x896_1_0_0_1_n_n.rhsNonContracting by decide)]
  rfl

/-- The product accumulated from zero, read at (r, j): the sum over the 512 features d of the left operand at (r, d)
    times the right operand at (d, j). -/
theorem scores_apply (a : FVec Ideal S1024x512 .bf16) (b : FVec Ideal S512x896 .bf16) (r : Fin 1024) (j : Fin 896) :
    matmul dot_S1024x512_S512x896_S1024x896_1_0_0_1_n_n none a b (constant S1024x896 .f32 0x00000000#32) (ix2 r j)
      = ∑ d : Fin 512, a (ix2 r d) * b (ix2 d j) := by
  simp only [matmul]
  rw [Ideal.matmul_constant_zero_apply, ← Equiv.sum_comp (contrEquiv1 dot_S1024x512_S512x896_S1024x896_1_0_0_1_n_n 512 rfl rfl).symm]
  refine Finset.sum_congr rfl fun k _ => ?_
  have hk := contrEquiv1_symm_val dot_S1024x512_S512x896_S1024x896_1_0_0_1_n_n 512 rfl rfl k
  have el : dot_S1024x512_S512x896_S1024x896_1_0_0_1_n_n.lhsIdx (ix2 r j) ((contrEquiv1 dot_S1024x512_S512x896_S1024x896_1_0_0_1_n_n 512 rfl rfl).symm k) = ix2 r k := funext fun c => Fin.ext (by
    match c with
    | ⟨0, _⟩ => exact lhs_scores_0 _ _
    | ⟨1, _⟩ => exact (lhs_scores_1 _ _).trans hk)
  have er : dot_S1024x512_S512x896_S1024x896_1_0_0_1_n_n.rhsIdx (ix2 r j) ((contrEquiv1 dot_S1024x512_S512x896_S1024x896_1_0_0_1_n_n 512 rfl rfl).symm k) = ix2 k j := funext fun c => Fin.ext (by
    match c with
    | ⟨0, _⟩ => exact (rhs_scores_0 _ _).trans hk
    | ⟨1, _⟩ => exact rhs_scores_1 _ _)
  rw [el, er]

/-- Against the transposed centre tile: the entry at (r, j) is the inner product of batch row r with the tile's
    centre row j. -/
theorem scores_transposed_apply (a : FVec Ideal S1024x512 .bf16) (c : FVec Ideal S896x512 .bf16)
    (h : S896x512.Transposes [1, 0] S512x896) (r : Fin 1024) (j : Fin 896) :
    matmul dot_S1024x512_S512x896_S1024x896_1_0_0_1_n_n none a (transpose S512x896 [1, 0] c h) (constant S1024x896 .f32 0x00000000#32) (ix2 r j)
      = ∑ d : Fin 512, a (ix2 r d) * c (ix2 j d) := by
  refine (scores_apply a _ r j).trans ?_
  refine Finset.sum_congr rfl fun d _ => ?_
  exact congrArg (a (ix2 r d) * ·) (transpose_ix2_apply c h d j)

/-! ## The words: which column a label selects -/

/-- For a label word w below 7168 and a tile number k below 8, column j of tile k is the selected one exactly when
    w = 896·k + j: every quantity is far below 2³², so the word subtraction and product do not wrap. -/
theorem column_selected_iff (w : BitVec 32) (k : ℕ) (hk8 : k < 8) (hw : w.toNat < 7168) (j : Fin 896) :
    IntOp.cmpi .eq (BitVec.ofNat 32 j.val) (IntOp.subi w (Scalar.muli (BitVec.ofNat 32 k) 896#32)) = 1#1
      ↔ w.toNat = 896 * k + j.val := by
  rw [IntOp.cmpi_eq]
  show BitVec.ofNat 32 j.val = w - BitVec.ofNat 32 k * 896#32 ↔ _
  have hj : j.val < 896 := j.isLt
  constructor
  · intro h
    have h' := congrArg BitVec.toNat h
    simp only [BitVec.toNat_sub, BitVec.toNat_mul, BitVec.toNat_ofNat] at h'
    omega
  · intro h
    apply BitVec.eq_of_toNat_eq
    simp only [BitVec.toNat_sub, BitVec.toNat_mul, BitVec.toNat_ofNat]
    omega

/-- A select on a condition word that is 1 takes its first operand. -/
theorem select_of_eq_one {α : Type} {c : BitVec 1} (h : c = 1#1) (a b : α) : Scalar.select c a b = a := by
  rw [h]; exact select_one a b
/-- A select on a condition word that is not 1 takes its second operand. -/
theorem select_of_ne_one {α : Type} {c : BitVec 1} (h : ¬c = 1#1) (a b : α) : Scalar.select c a b = b := by
  rw [eq_zero_of_ne_one h]; exact select_zero a b

/-! ## The selected entry of the tile, and the sum of a row of them -/

/-- The selection condition at (r, j): the column counter's word of j against the row's label word less 896 times the
    tile number. -/
theorem column_condition_apply (n : ℕ) (x2 : IVec S1024x1 32) (hi : S1024x896.Iotas .tc 32 [1])
    (hc : S1024x1.ShapeCasts S1024x1) (hb : S1024x1.Broadcasts S1024x896) (r : Fin 1024) (j : Fin 896) :
    cmpi .eq (iota .tc S1024x896 32 [1] hi)
        (broadcastTo S1024x896 (subi (shapeCast S1024x1 x2 hc) (broadcast S1024x1 (Scalar.muli (BitVec.ofNat 32 n) 896#32))) hb)
        (ix2 r j)
      = IntOp.cmpi .eq (BitVec.ofNat 32 j.val)
          (IntOp.subi (x2 (ix2 r (0 : Fin 1))) (Scalar.muli (BitVec.ofNat 32 n) 896#32)) := by
  show IntOp.cmpi .eq (iota .tc S1024x896 32 [1] hi (ix2 r j)) (broadcastTo S1024x896 _ hb (ix2 r j)) = _
  rw [column_counter_apply, column_spread_apply, shapeCast_self]
  rfl

/-- The tile of inner products as the body computes it (the same-shape casts are the identity), read at (r, j). -/
theorem tile_scores_apply (x0 : FVec Ideal S1024x512 .bf16) (x1 : FVec Ideal S896x512 .bf16)
    (h0 : S1024x512.ShapeCasts S1024x512) (h1 : S896x512.ShapeCasts S896x512) (ht : S896x512.Transposes [1, 0] S512x896)
    (r : Fin 1024) (j : Fin 896) :
    matmul dot_S1024x512_S512x896_S1024x896_1_0_0_1_n_n none (shapeCast S1024x512 x0 h0) (transpose S512x896 [1, 0] (shapeCast S896x512 x1 h1) ht)
        (constant S1024x896 .f32 0x00000000#32) (ix2 r j)
      = ∑ d : Fin 512, x0 (ix2 r d) * x1 (ix2 j d) := by
  rw [shapeCast_self, shapeCast_self]
  exact scores_transposed_apply x0 x1 ht r j

/-- A row of selected entries sums to the one entry whose column the label names, or to zero when the label names no
    column of this tile: every other summand is the zero the select falls back to. -/
theorem selected_sum (w : BitVec 32) (k : ℕ) (hk8 : k < 8) (hw : w.toNat < 7168) (f : Fin 896 → EReal) :
    ∑ j : Fin 896, Scalar.select (IntOp.cmpi .eq (BitVec.ofNat 32 j.val)
        (IntOp.subi w (Scalar.muli (BitVec.ofNat 32 k) 896#32))) (f j) (0 : EReal)
      = if h : 896 * k ≤ w.toNat ∧ w.toNat < 896 * k + 896 then f ⟨w.toNat - 896 * k, by omega⟩ else 0 := by
  by_cases h : 896 * k ≤ w.toNat ∧ w.toNat < 896 * k + 896
  · rw [dif_pos h]
    refine (Finset.sum_eq_single (⟨w.toNat - 896 * k, by omega⟩ : Fin 896) ?_ ?_).trans ?_
    · intro j _ hj
      refine select_of_ne_one (fun hc => hj ?_) _ _
      have hwj := (column_selected_iff w k hk8 hw j).mp hc
      exact Fin.ext (by show j.val = w.toNat - 896 * k; omega)
    · intro hn
      exact absurd (Finset.mem_univ _) hn
    · exact select_of_eq_one ((column_selected_iff w k hk8 hw _).mpr
        (by show w.toNat = 896 * k + (w.toNat - 896 * k); omega)) _ _
  · rw [dif_neg h]
    refine Finset.sum_eq_zero fun j _ => ?_
    refine select_of_ne_one (fun hc => h ?_) _ _
    have hwj := (column_selected_iff w k hk8 hw j).mp hc
    have hj : j.val < 896 := j.isLt
    constructor <;> omega

/-- One grid step at class tile k (columns 896·k … 896·k + 895), at batch-tile row r whose label word is w < 7168:
    the accumulator gains the inner product of the row with the tile's local centre row w − 896·k when w falls in
    the tile, and nothing (zero) otherwise. -/
theorem pay2_row (i : grid0.Coords) (x0 : FVec Ideal S1024x512 .bf16) (x1 : FVec Ideal S896x512 .bf16)
    (x2 : IVec S1024x1 32) (acc : FVec Ideal S1024x1 .f32) (r : Fin 1024) (k : ℕ) (hk : (i 1).val = k) (hk8 : k < 8)
    (hw : (x2 (ix2 r (0 : Fin 1))).toNat < 7168) :
    k0_pay2 (F := Ideal) i x0 x1 x2 acc (ix2 r (0 : Fin 1))
      = acc (ix2 r (0 : Fin 1))
        + (if h : 896 * k ≤ (x2 (ix2 r (0 : Fin 1))).toNat ∧ (x2 (ix2 r (0 : Fin 1))).toNat < 896 * k + 896 then
            ∑ d : Fin 512, x0 (ix2 r d) * x1 (ix2 (⟨(x2 (ix2 r (0 : Fin 1))).toNat - 896 * k, by omega⟩ : Fin 896) d)
          else 0) := by
  subst hk
  unfold k0_pay2
  dsimp only
  -- the outer same-shape cast is the identity; the sum at (r, 0) adds the entries
  refine (congrFun (shapeCast_self _ _) _).trans ?_
  refine (addf_apply _ _ _).trans ?_
  refine congrArg (acc (ix2 r (0 : Fin 1)) + ·) ?_
  -- the column of row sums at (r, 0) is the sum of row r of the selected tile
  refine (rowSums_column_apply _ _ r 0).trans ?_
  refine (laneSum_apply _ _ _ _ r).trans ?_
  -- each selected entry, then the row of them
  refine (Finset.sum_congr rfl fun j _ => ?_).trans
    (selected_sum (x2 (ix2 r (0 : Fin 1))) (i 1).val hk8 hw fun j => ∑ d : Fin 512, x0 (ix2 r d) * x1 (ix2 j d))
  refine (select_apply _ _ _ _).trans ?_
  rw [column_condition_apply, tile_scores_apply]
  show Scalar.select _ _ (Ideal.ofBits .f32 0x00000000#32) = _
  rw [Ideal.ofBits_zero_f32]

end Cert.KernelIdeal.BodyValue

end
-- ==== Proof.Accum.lean ====
/-
  The running cross term, point by point.

  Fix a batch row R with label word w < 7001 and write D = ⟨x_R, c_w⟩.  Class tile k holds the centre rows
  896·k … 896·k + 895; one grid step adds D to the row's accumulator when w lies in the tile and 0 otherwise.
  So after class tile k the accumulator holds D if w < 896·(k + 1) and 0 otherwise (induction over the points of a
  batch tile, the first of which starts from the zero column), and after the last tile (k = 7: every w < 7168 has
  been met) it holds D, which is what the body then copies to the output block.
-/
import proofs.«401125_j76209899700452_2_alg».proof.Proof.Pieces
import proofs.«401125_j76209899700452_2_alg».proof.Proof.Blocks
import proofs.«401125_j76209899700452_2_alg».proof.Proof.Payload
import proofs.«401125_j76209899700452_2_alg».proof.Proof.Spec
import Idealize.ShloMosaic.PureOps.Ideal.Laws

noncomputable section

namespace Cert.KernelIdeal.FrameValue

open Cert.KernelIdeal Cert.KernelIdeal.Gen Cert.KernelIdeal.BodyValue Cert.CenterLoss
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The inputs as launched. -/
abbrev xin (c : Dev nD) : S4096x512.Idx → EReal := m ((c.tc : Thread nD τ).loc main_arg0)
abbrev cin (c : Dev nD) : S7001x512.Idx → EReal := m ((c.tc : Thread nD τ).loc main_arg1)
abbrev labin (c : Dev nD) : S4096.Idx → BitVec 32 := m ((c.tc : Thread nD τ).loc main_arg2)

/-- The cross term of batch row R: its inner product with the centre its label names. -/
def cross (c : Dev nD) (R : Fin 4096) : EReal := dotRow (xin m c) (cin m c) R (cls (labin m c (ix1 R)))

theorem zeroCol_apply (j : S1024x1.Idx) : (zeroCol (F := Ideal)) j = 0 := by
  show shapeCast S1024x1 (broadcast S1024x1 (Scalar.ofBits (F := Ideal) .f32 0x00000000#32)) shapeCasts_S1024x1_S1024x1 j = 0
  rw [shapeCast_self]
  exact Ideal.ofBits_zero_f32

/-! ## The scratch after a point, by case -/

theorem scr_A (c : Dev nD) (t : Fin cfg0.N) (h0 : t.val % 8 = 0) (h1 : ¬t.val % 8 = 7) :
    (outsAt0 m c t.val t.isLt).2 = k0_pay2 (F := Ideal) (grid0.coords t) (xblk m c t) (cblk m c t) (lblk m c t) (zeroCol (F := Ideal)) := by
  rw [outsAt0_A m c t h0 h1]
  dsimp only
  exact scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

theorem scr_B (c : Dev nD) (t : Fin cfg0.N) (h0 : ¬t.val % 8 = 0) (h1 : ¬t.val % 8 = 7) :
    (outsAt0 m c t.val t.isLt).2 = k0_pay2 (F := Ideal) (grid0.coords t) (xblk m c t) (cblk m c t) (lblk m c t)
      (outsAt0 m c (t.val - 1) (Nat.lt_of_le_of_lt (Nat.sub_le _ _) t.isLt)).2 := by
  rw [outsAt0_B m c t h0 h1]
  dsimp only
  exact scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

theorem scr_C (c : Dev nD) (t : Fin cfg0.N) (h0 : ¬t.val % 8 = 0) (h1 : t.val % 8 = 7) :
    (outsAt0 m c t.val t.isLt).2 = k0_pay2 (F := Ideal) (grid0.coords t) (xblk m c t) (cblk m c t) (lblk m c t)
      (outsAt0 m c (t.val - 1) (Nat.lt_of_le_of_lt (Nat.sub_le _ _) t.isLt)).2 := by
  rw [outsAt0_C m c t h0 h1]
  dsimp only
  exact scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- At a last class tile the output block is the scratch. -/
theorem out_eq_scr_C (c : Dev nD) (t : Fin cfg0.N) (h0 : ¬t.val % 8 = 0) (h1 : t.val % 8 = 7) :
    (outsAt0 m c t.val t.isLt).1 = (outsAt0 m c t.val t.isLt).2 := by
  rw [scr_C m c t h0 h1, outsAt0_C m c t h0 h1]
  dsimp only
  exact out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-! ## One grid step at a row -/

theorem step_apply (c : Dev nD) (hlab : InRange (labin m c)) (t : Fin cfg0.N) (ht : t.val < 32)
    (acc : FVec Ideal S1024x1 .f32) (r : Fin 1024) :
    k0_pay2 (F := Ideal) (grid0.coords t) (xblk m c t) (cblk m c t) (lblk m c t) acc (ix2 r (0 : Fin 1))
      = acc (ix2 r (0 : Fin 1))
        + (if 896 * (t.val % 8) ≤ (labin m c (ix1 (rowOf t.val ht r))).toNat
              ∧ (labin m c (ix1 (rowOf t.val ht r))).toNat < 896 * (t.val % 8) + 896
            then cross m c (rowOf t.val ht r) else 0) := by
  obtain ⟨-, -, -, -, -, -, -, -, hk⟩ := idx_facts t
  have hl := lblk_apply m c t ht r
  have hw7 : (labin m c (ix1 (rowOf t.val ht r))).toNat < 7001 := hlab _
  unfold cross
  generalize hwdef : labin m c (ix1 (rowOf t.val ht r)) = w at hw7 ⊢
  have hl' : lblk m c t (ix2 r (0 : Fin 1)) = w := hl.trans hwdef
  have base := pay2_row (grid0.coords t) (xblk m c t) (cblk m c t) (lblk m c t) acc r (t.val % 8) hk
    (Nat.mod_lt _ (by decide)) (by rw [hl']; omega)
  simp only [hl'] at base
  refine base.trans (congrArg (acc (ix2 r (0 : Fin 1)) + ·) ?_)
  by_cases h : 896 * (t.val % 8) ≤ w.toNat ∧ w.toNat < 896 * (t.val % 8) + 896
  · rw [dif_pos h, if_pos h]
    unfold dotRow
    refine Finset.sum_congr rfl fun d _ => ?_
    rw [xblk_apply m c t ht r d,
      cblk_apply m c t ⟨w.toNat - 896 * (t.val % 8), by omega⟩ d
        (by show 896 * (t.val % 8) + (w.toNat - 896 * (t.val % 8)) < 7001; omega)]
    have e : (⟨896 * (t.val % 8) + (w.toNat - 896 * (t.val % 8)), by omega⟩ : Fin 7001) = cls w :=
      Fin.ext (by rw [cls_val hw7]; show 896 * (t.val % 8) + (w.toNat - 896 * (t.val % 8)) = w.toNat; omega)
    rw [e]
  · rw [dif_neg h, if_neg h]

/-- The same step, the point given by its number. -/
theorem step_at (c : Dev nD) (hlab : InRange (labin m c)) (n : ℕ) (hn : n < cfg0.N) (hn32 : n < 32)
    (acc : FVec Ideal S1024x1 .f32) (r : Fin 1024) :
    k0_pay2 (F := Ideal) (grid0.coords ⟨n, hn⟩) (xblk m c ⟨n, hn⟩) (cblk m c ⟨n, hn⟩) (lblk m c ⟨n, hn⟩) acc (ix2 r (0 : Fin 1))
      = acc (ix2 r (0 : Fin 1))
        + (if 896 * (n % 8) ≤ (labin m c (ix1 (rowOf n hn32 r))).toNat
              ∧ (labin m c (ix1 (rowOf n hn32 r))).toNat < 896 * (n % 8) + 896
            then cross m c (rowOf n hn32 r) else 0) :=
  step_apply m c hlab ⟨n, hn⟩ hn32 acc r

/-! ## The invariant -/

/-- After point n (class tile n % 8 of batch tile n / 8) the scratch row r holds the row's cross term if its label
    lies below the tiles met so far, and zero otherwise. -/
theorem scratch_at (c : Dev nD) (hlab : InRange (labin m c)) :
    ∀ (n : ℕ) (hn : n < cfg0.N) (hn32 : n < 32) (r : Fin 1024),
      (outsAt0 m c n hn).2 (ix2 r (0 : Fin 1))
        = if (labin m c (ix1 (rowOf n hn32 r))).toNat < 896 * (n % 8) + 896 then cross m c (rowOf n hn32 r) else 0 := by
  intro n
  induction n with
  | zero =>
    intro hn hn32 r
    have hs : (outsAt0 m c 0 hn).2 = k0_pay2 (F := Ideal) (grid0.coords ⟨0, hn⟩) (xblk m c ⟨0, hn⟩) (cblk m c ⟨0, hn⟩)
        (lblk m c ⟨0, hn⟩) (zeroCol (F := Ideal)) := scr_A m c ⟨0, hn⟩ (by rfl) (by show ¬(0 : ℕ) % 8 = 7; decide)
    rw [hs, step_at m c hlab 0 hn hn32 _ r, zeroCol_apply, zero_add]
    by_cases h : (labin m c (ix1 (rowOf 0 hn32 r))).toNat < 896 * (0 % 8) + 896
    · rw [if_pos ⟨by omega, h⟩, if_pos h]
    · rw [if_neg (fun hh => h hh.2), if_neg h]
  | succ n ih =>
    intro hn hn32 r
    by_cases h0 : (n + 1) % 8 = 0
    · have hs : (outsAt0 m c (n + 1) hn).2 = k0_pay2 (F := Ideal) (grid0.coords ⟨n + 1, hn⟩) (xblk m c ⟨n + 1, hn⟩)
          (cblk m c ⟨n + 1, hn⟩) (lblk m c ⟨n + 1, hn⟩) (zeroCol (F := Ideal)) :=
        scr_A m c ⟨n + 1, hn⟩ h0 (by show ¬(n + 1) % 8 = 7; omega)
      rw [hs, step_at m c hlab (n + 1) hn hn32 _ r, zeroCol_apply, zero_add]
      by_cases h : (labin m c (ix1 (rowOf (n + 1) hn32 r))).toNat < 896 * ((n + 1) % 8) + 896
      · rw [if_pos ⟨by omega, h⟩, if_pos h]
      · rw [if_neg (fun hh => h hh.2), if_neg h]
    · have hn32' : n < 32 := by omega
      have hprev := ih (Nat.lt_of_succ_lt hn) hn32' r
      have hR : rowOf n hn32' r = rowOf (n + 1) hn32 r :=
        Fin.ext (by show 1024 * (n / 8) + r.val = 1024 * ((n + 1) / 8) + r.val; omega)
      rw [hR] at hprev
      have hs : (outsAt0 m c (n + 1) hn).2 = k0_pay2 (F := Ideal) (grid0.coords ⟨n + 1, hn⟩) (xblk m c ⟨n + 1, hn⟩)
          (cblk m c ⟨n + 1, hn⟩) (lblk m c ⟨n + 1, hn⟩) (outsAt0 m c n (Nat.lt_of_succ_lt hn)).2 := by
        by_cases h1 : (n + 1) % 8 = 7
        · exact scr_C m c ⟨n + 1, hn⟩ h0 h1
        · exact scr_B m c ⟨n + 1, hn⟩ h0 h1
      rw [hs, step_at m c hlab (n + 1) hn hn32 _ r, hprev]
      have hk : 896 * (n % 8) + 896 = 896 * ((n + 1) % 8) := by omega
      by_cases ha : (labin m c (ix1 (rowOf (n + 1) hn32 r))).toNat < 896 * (n % 8) + 896
      · rw [if_pos ha, if_neg (by omega), if_pos (by omega), add_zero]
      · rw [if_neg ha, zero_add]
        by_cases hb : (labin m c (ix1 (rowOf (n + 1) hn32 r))).toNat < 896 * ((n + 1) % 8) + 896
        · rw [if_pos ⟨by omega, hb⟩, if_pos hb]
        · rw [if_neg (fun hh => hb hh.2), if_neg hb]

/-- At a last class tile the output block holds every row's cross term. -/
theorem out_at (c : Dev nD) (hlab : InRange (labin m c)) (t : Fin cfg0.N) (ht : t.val < 32) (h7 : t.val % 8 = 7) (r : Fin 1024) :
    (outsAt0 m c t.val t.isLt).1 (ix2 r (0 : Fin 1)) = cross m c (rowOf t.val ht r) := by
  rw [out_eq_scr_C m c t (by omega) h7, scratch_at m c hlab t.val t.isLt ht r]
  have hw7 : (labin m c (ix1 (rowOf t.val ht r))).toNat < 7001 := hlab _
  rw [if_pos (by omega)]

end Cert.KernelIdeal.FrameValue

end
-- ==== Proof.TailDef.lean ====
/-
  The host operations after the region, as ONE function.

  After the pallas_call the program computes, from the inputs x, c, lab and the call's result column o (one cross
  term per batch row):  ‖x_R‖² by a row sum, ‖c_L‖² by a row sum, the gather of ‖c‖² at the (sign-normalised) labels,
  (‖x_R‖² + ‖c‖²[lab R]) − 2 · o_R, the sum over the batch, and the quotient by 4096.  `tail` is that composition.
-/
import proofs.«401125_j76209899700452_2_alg».proof.KernelIdeal

noncomputable section

namespace Cert.KernelIdeal.TailValue

open Cert.KernelIdeal Cert.KernelIdeal.Facts₀ Cert.KernelIdeal.Facts
open Idealize.ShloMosaic

variable {F : FTy → Type} [FloatOps F] [Cert.KernelIdeal.Facts]

/-- The lines after the call, composed: the mean over the batch of (‖x_R‖² + ‖c‖²[lab R]) − 2 · o_R. -/
def tail (x : FVec F S4096x512 .f32) (c : FVec F S7001x512 .f32) (lab : IVec S4096 32) (o : FVec F S4096x1 .f32) :
    FVec F S_ .f32 :=
  Host.divf
    (Host.reduceAdd
      (subf
        (addf
          (Host.reduceAdd (mulf x x) (constant S_ .f32 0x00000000#32) reducesTo_S4096x512_S4096_d1 h_S_)
          (Host.gather gather_S7001_S4096x1_S4096_n_0_n_n_0_1_1
            (Host.reduceAdd (mulf c c) (constant S_ .f32 0x00000000#32) reducesTo_S7001x512_S7001_d1 h_S_)
            (broadcastInDim S4096x1 ![0] bcast_S4096_S4096x1_0
              (select (cmpi .slt lab (broadcastInDim S4096 ![] bcast_S_S4096 (constantI S_ 32 0#32)))
                (addi lab (broadcastInDim S4096 ![] bcast_S_S4096 (constantI S_ 32 7001#32))) lab))))
        (mulf (broadcastInDim S4096 ![] bcast_S_S4096 (constant S_ .f32 0x40000000#32))
          (shapeCast S4096 o shapeCasts_S4096x1_S4096)))
      (constant S_ .f32 0x00000000#32) reducesTo_S4096_S_d0 h_S_)
    (constant S_ .f32 0x45800000#32)

end Cert.KernelIdeal.TailValue

end
-- ==== Proof.Tail.lean ====
/-
  The program's result after the frame run: the lines after the call (`tail`, one function) applied to the launch
  contents of the inputs and to the result array of the call.
-/
import proofs.«401125_j76209899700452_2_alg».proof.Proof.Gen.KernelIdeal.Frame
import proofs.«401125_j76209899700452_2_alg».proof.Proof.TailDef
import Idealize.ShloMosaic.Lib.StableHlo.Run
import Idealize.ShloMosaic.Lib.Pipeline.Value

noncomputable section

namespace Cert.KernelIdeal.TailValue

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

variable (m : (ℓ : Loc nD τ sig) → Buf (Elt F) ℓ)

set_option maxHeartbeats 4000000 in
/-- The program's result after the frame run: the lines after the call applied to the inputs as launched (no line
    before the call writes them) and to the call's result array. -/
theorem tail_run (c : Dev nD) :
    Pipeline.afterTail₀ cfgs (dats m) 0 (V0 m) [hostOps1] c main_v22
      = tail (m ((c.tc : Thread nD τ).loc main_arg0)) (m ((c.tc : Thread nD τ).loc main_arg1))
          (m ((c.tc : Thread nD τ).loc main_arg2)) ((dats m 0 c).arrAt 3 cfg0.N) := by
  unfold Pipeline.afterTail₀
  simp only [List.flatten_cons, List.flatten_nil, List.append_nil]
  generalize hW : Pipeline.withArrays _ _ _ _ = W
  after_results_simp
  have e0 : W (Proc.devRef .tc main_arg0) = m ((c.tc : Thread nD τ).loc main_arg0) := by
    rw [← hW, Pipeline.withArrays_of_ne _ c (V0 m c) _ main_arg0 (by exact (by decide : ∀ w, Pipeline.arrRef spec0 w ≠ main_arg0))]
    exact V_main_arg0 m c
  have e1 : W (Proc.devRef .tc main_arg1) = m ((c.tc : Thread nD τ).loc main_arg1) := by
    rw [← hW, Pipeline.withArrays_of_ne _ c (V0 m c) _ main_arg1 (by exact (by decide : ∀ w, Pipeline.arrRef spec0 w ≠ main_arg1))]
    exact V_main_arg1 m c
  have e2 : W (Proc.devRef .tc main_arg2) = m ((c.tc : Thread nD τ).loc main_arg2) := by
    rw [← hW, Pipeline.withArrays_of_ne _ c (V0 m c) _ main_arg2 (by exact (by decide : ∀ w, Pipeline.arrRef spec0 w ≠ main_arg2))]
    exact V_main_arg2 m c
  have e4 : W (Proc.devRef .tc main_v4) = (dats m 0 c).arrAt 3 cfg0.N := by
    rw [← hW]
    exact Pipeline.withArrays_arr spec0 launch0.win.arr_inj c _ _ 3
  rw [e0, e1, e2, e4]
  rfl

end Cert.KernelIdeal.TailValue

end
-- ==== Proof.TailLoss.lean ====
/-
  The lines after the call, read at the extended reals.

  Each stage of `tail` is read at one batch row R, then the rows are summed.
    * ‖x_R‖²: the sum over axis 1 of x·x at row R is the zero word plus Σ_d x[R,d]², which is `sqX x R`; likewise the
      sum over axis 1 of c·c at row L is `sqC c L`.
    * The label column: with the label word of row R below 7001 (unsigned) it is non-negative as a signed word, so the
      comparison "label < 0" is the bit 0 and the select keeps the label itself.
    * The gather of ‖c‖² at the label column reads, at row R, ‖c‖² at the label read signed and clamped into [0, 7000]:
      that position is `cls (lab R)` by definition, so the gathered entry is `sqC c (cls (lab R))`.
    * The cross term: the [4096,1] column o reshaped to [4096] reads o at (R, 0) (same row-major position R·1 + 0 = R),
      which the hypothesis says is ⟨x_R, c_L⟩; the scalar word 2.0 broadcast reads the word everywhere.
  So the vector under the last sum is, at R, (‖x_R‖² + ‖c_L‖²) − 2 · ⟨x_R, c_L⟩ = `dist x c R L` with L = cls (lab R).
  The sum over the rank-1 index set [4096] into the scalar shape is the zero word plus the sum over all indices,
  re-indexed by the one coordinate to a sum over Fin 4096; the quotient by the word 4096.0 is the ideal division.
-/
import proofs.«401125_j76209899700452_2_alg».proof.Proof.TailDef
import proofs.«401125_j76209899700452_2_alg».proof.Proof.Spec
import Idealize.ShloMosaic.Lib.ValueIdx
import Idealize.ShloMosaic.Lib.ValueIdxRank1
import Idealize.ShloMosaic.Lib.Pipeline.Value
import Idealize.ShloMosaic.Lib.StableHlo.Predicate
import Idealize.ShloMosaic.PureOps.Ideal.Laws

noncomputable section

namespace Cert.KernelIdeal.TailValue

open Cert.KernelIdeal Cert.KernelIdeal.Facts₀ Cert.KernelIdeal.Facts
open Idealize.ShloMosaic Idealize.ShloMosaic.ValueIdx

variable [Cert.KernelIdeal.Facts]

/-- The rank-1 index at coordinate p, in its two spellings. -/
theorem ofFin_eq_ix1 {n : Nat} (p : Fin n) : Shape.Idx.ofFin p = ix1 p := by
  funext a; match a with | ⟨0, _⟩ => rfl

/-- The row sum of x·x over the 512 features, at batch row R, is ‖x_R‖² summed from the zero word. -/
theorem x_sq_row_eq_sqX (x : FVec Ideal S4096x512 .f32) (R : Fin 4096) :
    Host.reduceAdd (F := Ideal) (mulf x x) (constant (F := Ideal) S_ .f32 0x00000000#32) reducesTo_S4096x512_S4096_d1 h_S_ (ix1 R)
      = Cert.CenterLoss.sqX x R := by
  generalize hy : mulf x x = y
  simp only [Host.reduceAdd, Ideal.hostReduceAdd_def]
  rw [Ideal.hostReduceAdd_single reducesTo_S4096x512_S4096_d1 (by decide)]
  unfold Cert.CenterLoss.sqX
  refine congrArg (_ + ·) (Finset.sum_congr rfl fun k _ => ?_)
  subst hy
  -- the index of the summand: row R of the result with k put back on the summed axis is (R, k)
  have e : ∀ h : S4096x512.Reduces [1] S4096, h.lift (ix1 R) k = ix2 R k := fun h =>
    funext fun a => Fin.ext (by match a with | ⟨0, _⟩ => rfl | ⟨1, _⟩ => rfl)
  rw [e]
  rfl

/-- The row sum of c·c over the 512 features, at centre L, is ‖c_L‖² summed from the zero word. -/
theorem c_sq_row_eq_sqC (c : FVec Ideal S7001x512 .f32) (L : Fin 7001) :
    Host.reduceAdd (F := Ideal) (mulf c c) (constant (F := Ideal) S_ .f32 0x00000000#32) reducesTo_S7001x512_S7001_d1 h_S_ (ix1 L)
      = Cert.CenterLoss.sqC c L := by
  generalize hy : mulf c c = y
  simp only [Host.reduceAdd, Ideal.hostReduceAdd_def]
  rw [Ideal.hostReduceAdd_single reducesTo_S7001x512_S7001_d1 (by decide)]
  unfold Cert.CenterLoss.sqC
  refine congrArg (_ + ·) (Finset.sum_congr rfl fun k _ => ?_)
  subst hy
  have e : ∀ h : S7001x512.Reduces [1] S7001, h.lift (ix1 L) k = ix2 L k := fun h =>
    funext fun a => Fin.ext (by match a with | ⟨0, _⟩ => rfl | ⟨1, _⟩ => rfl)
  rw [e]
  rfl

/-- A label in the class range is not negative as a signed word, so the sign normalisation
    (label < 0 ? label + 7001 : label) keeps it. -/
theorem normalised_label_eq_label (lab : IVec S4096 32) (hlab : Cert.CenterLoss.InRange lab) (R : Fin 4096) :
    select (cmpi .slt lab (broadcastInDim S4096 ![] bcast_S_S4096 (constantI S_ 32 0#32)))
      (addi lab (broadcastInDim S4096 ![] bcast_S_S4096 (constantI S_ 32 7001#32))) lab (ix1 R) = lab (ix1 R) := by
  rw [select_apply]
  have hz : cmpi .slt lab (broadcastInDim S4096 ![] bcast_S_S4096 (constantI S_ 32 0#32)) (ix1 R) = 0#1 := by
    apply eq_zero_of_ne_one
    show ¬ IntOp.cmpi .slt (lab (ix1 R)) (broadcastInDim S4096 ![] bcast_S_S4096 (constantI S_ 32 0#32) (ix1 R)) = 1#1
    rw [StableHlo.Predicate.bcast_scalar bcast_S_S4096 h_S_]
    show ¬ IntOp.cmpi .slt (lab (ix1 R)) 0#32 = 1#1
    -- both words are below 2³¹, so the signed comparison is the comparison of their values, and no value is below 0
    rw [StableHlo.Predicate.slt_iff_toNat (by have := hlab R; omega) (by decide)]
    exact Nat.not_lt_zero _
  rw [hz, select_zero]

/-- The gather of ‖c‖² at the column of normalised labels reads, at row R, ‖c_L‖² for L the class the label names:
    the gather reads the table at the start index read signed and clamped into [0, 7000], which is `cls` of the label. -/
theorem gathered_c_sq_eq_sqC (c : FVec Ideal S7001x512 .f32) (lab : IVec S4096 32) (hlab : Cert.CenterLoss.InRange lab)
    (R : Fin 4096) :
    Host.gather gather_S7001_S4096x1_S4096_n_0_n_n_0_1_1
            (Host.reduceAdd (F := Ideal) (mulf c c) (constant (F := Ideal) S_ .f32 0x00000000#32) reducesTo_S7001x512_S7001_d1 h_S_)
            (broadcastInDim S4096x1 ![0] bcast_S4096_S4096x1_0
              (select (cmpi .slt lab (broadcastInDim S4096 ![] bcast_S_S4096 (constantI S_ 32 0#32)))
                (addi lab (broadcastInDim S4096 ![] bcast_S_S4096 (constantI S_ 32 7001#32))) lab)) (ix1 R)
      = Cert.CenterLoss.sqC c (Cert.CenterLoss.cls (lab (ix1 R))) := by
  generalize hT : Host.reduceAdd (F := Ideal) (mulf c c) (constant (F := Ideal) S_ .f32 0x00000000#32) reducesTo_S7001x512_S7001_d1 h_S_ = T
  generalize hcol : broadcastInDim S4096x1 ![0] bcast_S4096_S4096x1_0
              (select (cmpi .slt lab (broadcastInDim S4096 ![] bcast_S_S4096 (constantI S_ 32 0#32)))
                (addi lab (broadcastInDim S4096 ![] bcast_S_S4096 (constantI S_ 32 7001#32))) lab) = col
  -- the column at (R, 0) is the label of row R
  have hc : col (StableHlo.Predicate.ixP R) = lab (ix1 R) := by
    rw [← hcol, StableHlo.Predicate.bcast_col1, ofFin_eq_ix1, normalised_label_eq_label lab hlab R]
  have hg := StableHlo.Predicate.gather_take gather_S7001_S4096x1_S4096_n_0_n_n_0_1_1 rfl rfl rfl rfl T col R (by decide)
  rw [ofFin_eq_ix1, ofFin_eq_ix1] at hg
  -- the clamped position min (signed value) (7001 − 1) is the value of `cls` of the label
  refine hg.trans ((congrArg T (congrArg ix1 (Fin.ext ?_ : _ = Cert.CenterLoss.cls (lab (ix1 R))))).trans ?_)
  · show min (col (StableHlo.Predicate.ixP R)).toInt.toNat (7001 - 1) = min (lab (ix1 R)).toInt.toNat 7000
    rw [hc]
  · subst hT; exact c_sq_row_eq_sqC c _

/-- The doubled cross term at row R: the word 2.0 times the call's result column at (R, 0). The reshape [4096,1] → [4096]
    keeps the row-major position, R·1 + 0 = R. -/
theorem doubled_cross_term (o : FVec Ideal S4096x1 .f32) (R : Fin 4096) :
    mulf (broadcastInDim S4096 ![] bcast_S_S4096 (constant (F := Ideal) S_ .f32 0x40000000#32))
          (shapeCast S4096 o shapeCasts_S4096x1_S4096) (ix1 R)
      = Ideal.ofBits .f32 0x40000000#32 * o (ix2 R (0 : Fin 1)) := by
  rw [mulf_apply, StableHlo.Predicate.bcast_scalar bcast_S_S4096 h_S_, constant_apply,
    shapeCast_apply o shapeCasts_S4096x1_S4096 (ix1 R) (ix2 R (0 : Fin 1))
      (by rw [Shape.rowMajor_val_two, Shape.rowMajor_val_one]; show R.val * 1 + 0 = R.val; omega)]

/-- The vector under the last sum is, at row R, the expanded squared distance of x_R to the centre its label names. -/
theorem row_eq_dist (x : FVec Ideal S4096x512 .f32) (c : FVec Ideal S7001x512 .f32) (lab : IVec S4096 32)
    (o : FVec Ideal S4096x1 .f32) (hlab : Cert.CenterLoss.InRange lab)
    (ho : ∀ R : Fin 4096, o (ix2 R (0 : Fin 1)) = Cert.CenterLoss.dotRow x c R (Cert.CenterLoss.cls (lab (ix1 R))))
    (R : Fin 4096) :
    subf
        (addf
          (Host.reduceAdd (F := Ideal) (mulf x x) (constant (F := Ideal) S_ .f32 0x00000000#32) reducesTo_S4096x512_S4096_d1 h_S_)
          (Host.gather gather_S7001_S4096x1_S4096_n_0_n_n_0_1_1
            (Host.reduceAdd (F := Ideal) (mulf c c) (constant (F := Ideal) S_ .f32 0x00000000#32) reducesTo_S7001x512_S7001_d1 h_S_)
            (broadcastInDim S4096x1 ![0] bcast_S4096_S4096x1_0
              (select (cmpi .slt lab (broadcastInDim S4096 ![] bcast_S_S4096 (constantI S_ 32 0#32)))
                (addi lab (broadcastInDim S4096 ![] bcast_S_S4096 (constantI S_ 32 7001#32))) lab))))
        (mulf (broadcastInDim S4096 ![] bcast_S_S4096 (constant (F := Ideal) S_ .f32 0x40000000#32))
          (shapeCast S4096 o shapeCasts_S4096x1_S4096)) (ix1 R)
      = Cert.CenterLoss.dist x c R (Cert.CenterLoss.cls (lab (ix1 R))) := by
  rw [subf_apply, addf_apply, x_sq_row_eq_sqX x R, gathered_c_sq_eq_sqC c lab hlab R, doubled_cross_term o R, ho R]
  rfl

/-- With every label in the class range and the call's result column holding, at row R, the inner product of x_R with
    the centre its label names, the lines after the call compute the centre loss. -/
theorem tail_eq_loss (x : FVec Ideal S4096x512 .f32) (c : FVec Ideal S7001x512 .f32) (lab : IVec S4096 32)
    (o : FVec Ideal S4096x1 .f32) (hlab : Cert.CenterLoss.InRange lab)
    (ho : ∀ R : Fin 4096, o (ix2 R (0 : Fin 1)) = Cert.CenterLoss.dotRow x c R (Cert.CenterLoss.cls (lab (ix1 R)))) :
    tail (F := Ideal) x c lab o = Cert.CenterLoss.loss x c lab := by
  funext i
  unfold tail Cert.CenterLoss.loss
  have hrow := row_eq_dist x c lab o hlab ho
  generalize subf
        (addf
          (Host.reduceAdd (F := Ideal) (mulf x x) (constant (F := Ideal) S_ .f32 0x00000000#32) reducesTo_S4096x512_S4096_d1 h_S_)
          (Host.gather gather_S7001_S4096x1_S4096_n_0_n_n_0_1_1
            (Host.reduceAdd (F := Ideal) (mulf c c) (constant (F := Ideal) S_ .f32 0x00000000#32) reducesTo_S7001x512_S7001_d1 h_S_)
            (broadcastInDim S4096x1 ![0] bcast_S4096_S4096x1_0
              (select (cmpi .slt lab (broadcastInDim S4096 ![] bcast_S_S4096 (constantI S_ 32 0#32)))
                (addi lab (broadcastInDim S4096 ![] bcast_S_S4096 (constantI S_ 32 7001#32))) lab))))
        (mulf (broadcastInDim S4096 ![] bcast_S_S4096 (constant (F := Ideal) S_ .f32 0x40000000#32))
          (shapeCast S4096 o shapeCasts_S4096x1_S4096)) = v at hrow ⊢
  simp only [Host.divf, Host.reduceAdd, Ideal.hostDivf_def, Ideal.hostReduceAdd_def]
  -- the scalar shape has no axis, so the sum over axis 0 of [4096] is the zero word plus the sum over every index
  rw [Ideal.hostReduceAdd_total reducesTo_S4096_S_d0 (fun b => b.elim0) v _ i]
  -- a rank-1 index is its one coordinate: the sum over the index set [4096] is the sum over Fin 4096
  have hs : ∑ j : S4096.Idx, v j = ∑ R : Fin 4096, Cert.CenterLoss.dist x c R (Cert.CenterLoss.cls (lab (ix1 R))) := by
    rw [← Equiv.sum_comp (idxEquiv1 (n := 4096)).symm v]
    exact Finset.sum_congr rfl fun R _ => hrow R
  rw [hs]
  rfl

end Cert.KernelIdeal.TailValue

end
-- ==== Proof.Final.lean ====
/-
  The kernel program's result.

  The call's result array is a [4096, 1] column written back once per batch tile, after its last class tile; the
  block written there holds each row's cross term, so the array ends holding, at row R, the inner product of x_R with
  the centre its label names.  The lines after the call turn that column into the centre loss.
-/
import proofs.«401125_j76209899700452_2_alg».proof.Proof.Accum
import proofs.«401125_j76209899700452_2_alg».proof.Proof.Tail
import proofs.«401125_j76209899700452_2_alg».proof.Proof.TailLoss

noncomputable section

namespace Cert.KernelIdeal.FrameValue

open Cert.KernelIdeal Cert.KernelIdeal.Gen Cert.CenterLoss
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The call's result column: row R holds the row's cross term. -/
def crossCol (c : Dev nD) : S4096x1.Idx → EReal := fun j => cross m c ⟨(j 0).val, idx2_lt0 j⟩

/-- What a last class tile writes back is its batch tile's rows of the column. -/
theorem flushed_eq (c : Dev nD) (hlab : InRange (labin m c)) (t : Fin cfg0.N) (hf : (cfg0.win 3).flush t = true) :
    (dats m 0 c).flushed 3 t = ((cfg0.win 3).blk t).view.read (Elt Ideal) (crossCol m c) := by
  have h7 : t.val % 8 = 7 := (flush0_3 t).mp hf
  have ht : t.val < 32 := lt_of_lt_of_eq t.isLt (show cfg0.N = 32 from N_0)
  obtain ⟨-, -, -, -, -, -, e0, e1, -⟩ := idx_facts t
  show (cfg0.win 3).cut (grid0.coords t) ((dats m 0 c).after 3 t) = _
  rw [after0_3]
  funext j
  have hj0 : (j 0).val < 1024 := (j 0).isLt
  have hj1 : (j 1).val < 1 := (j 1).isLt
  obtain ⟨r, q, rfl⟩ : ∃ (r : Fin 1024) (q : Fin 1), j = ix2 r q :=
    ⟨⟨(j 0).val, hj0⟩, ⟨(j 1).val, hj1⟩, funext fun a => Fin.ext (by match a with | ⟨0, _⟩ => rfl | ⟨1, _⟩ => rfl)⟩
  obtain rfl : q = 0 := Subsingleton.elim _ _
  rw [View.read_apply]
  show (outsAt0 m c t.val t.isLt).1 (ix2 r (0 : Fin 1)) = crossCol m c _
  rw [out_at m c hlab t ht h7 r]
  unfold crossCol
  congr 1
  apply Fin.ext
  show 1024 * (t.val / 8) + r.val = win0_3.index t (0 : Fin 2) * 1024 + 1 * r.val
  omega

/-- An index of the column is in point t's block iff each coordinate is in the block's range on its axis. -/
theorem mem_blk (t : Fin cfg0.N) (i : S4096x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v4).slice (win0_3.rect t)).set ↔ _
  rw [View.set_slice_whole, Rect.mem_set_unit]
  exact Iff.rfl

/-- Row R of the column is written back by the last class tile of batch tile R / 1024. -/
theorem cover (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  have hN : cfg0.N = 32 := N_0
  obtain ⟨t, ht⟩ : ∃ t : Fin cfg0.N, t.val = 8 * ((i 0).val / 1024) + 7 := ⟨⟨8 * ((i 0).val / 1024) + 7, by rw [hN]; omega⟩, rfl⟩
  obtain ⟨-, -, -, -, -, -, e0, e1, -⟩ := idx_facts t
  refine ⟨t, (flush0_3 t).mpr (by omega), ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1 ≤ (i 1).val ∧ (i 1).val < win0_3.index t (1 : Fin 2) * 1 + 1; omega

/-- The call's result array after the run. -/
theorem final (c : Dev nD) (hlab : InRange (labin m c)) : (dats m 0 c).arrAt 3 cfg0.N = crossCol m c :=
  (dats m 0 c).arrAt_eq_of_cover 3 (crossCol m c) (fun t hf => flushed_eq m c hlab t hf) (cover)

/-- The kernel program, run: with every label in the class range, every weakly fair execution ends with the result
    at the centre loss of the inputs, the inputs unchanged. -/
theorem kernel_run (hlab : ∀ c : Dev nD, InRange (labin m c)) :
    θ_run defs (onTc (τ := τ) (main (F := Ideal))) ⟨m, fun _ => 0, ρ⟩ (fun r => ∀ c : Dev nD,
      r.2.mem ((c.tc : Thread nD τ).loc main_v22) = Cert.CenterLoss.loss (xin m c) (cin m c) (labin m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v22 (Pipeline.mem_restRefs_of main_v22 (by decide) (by decide))).trans
        ((TailValue.tail_run m c).trans (by
          rw [final m c (hlab c)]
          exact TailValue.tail_eq_loss _ _ _ _ (hlab c) (fun R => rfl))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.FrameValue

end
-- ==== Proof.RefLoss.lean ====
/-
  The reference, read at the extended reals.

  The reference forms the whole table of expanded squared distances
      D[R, L] = (‖x_R‖² + ‖c_L‖²) − 2 · ⟨x_R, c_L⟩        (R a batch row, L a class),
  takes from row R the entry its label names (take_along_axis along the class axis), sums the 4096 entries taken
  from the zero word and divides by the word 4096.0.

  The take is spelt with a range test and a gather.  A label word w below 7001 is non-negative read signed, so
  the "negative index" branch (w + 7001) is not taken and the index is w itself; it passes both range tests
  (0 ≤ w, w ≤ 7000), so the conjunction folded by `and` from the true bit over an axis of extent one is the true bit,
  and the select keeps the gathered entry and never the not-a-number word.  The gather has one batching axis (the
  batch row, on both the table and the indices) and one collapsed, start-indexed axis (the class): at result index
  (R, 0) it reads the table at (R, clamp of idx[R, 0, 0] into [0, 7000]), and that clamp of a label word is by
  definition the class the word names.  So the entry taken from row R is D[R, cls (lab R)], the summand of the
  centre loss, and the sum over the [4096, 1] index set is the sum over the batch rows.
-/
import proofs.«401125_j76209899700452_2_alg».proof.Proof.Gen.ReferenceIdeal.Read
import proofs.«401125_j76209899700452_2_alg».proof.Proof.Spec
import Idealize.ShloMosaic.Lib.ValueIdx
import Idealize.ShloMosaic.Lib.ValueIdxRank1
import Idealize.ShloMosaic.Lib.Pipeline.Value
import Idealize.ShloMosaic.Lib.StableHlo.Predicate
import Idealize.ShloMosaic.Lib.ReduceAll
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-! ### Label words in the class range -/

/-- Every label word, at whichever index of the label vector it is read, is below 7001. -/
theorem label_lt (lab : (⟨S4096, .i32⟩ : BufTy).Contents (Elt Ideal)) (hlab : Cert.CenterLoss.InRange lab)
    (j : S4096.Idx) : (lab j).toNat < 7001 := by
  obtain ⟨R, rfl⟩ : ∃ R : Fin 4096, j = ix1 R := ⟨j 0, eq_ix1 j⟩
  exact hlab R

/-- A word below 7001 reads the same signed and unsigned. -/
theorem word_toInt {w : BitVec 32} (h : w.toNat < 7001) : w.toInt = (w.toNat : Int) :=
  StableHlo.Predicate.toInt_eq_toNat_of_lt (by omega)

/-- A word below 7001 is not negative: the test "index < 0" of take_along_axis fails on it. -/
theorem word_slt_zero {w : BitVec 32} (h : w.toNat < 7001) : IntOp.cmpi .slt w 0#32 = 0#1 := by
  refine eq_zero_of_ne_one fun e => ?_
  have hlt := IntOp.cmpi_slt.1 e
  rw [word_toInt h] at hlt
  have h0 : (0#32 : BitVec 32).toInt = 0 := by decide
  omega

/-- A word below 7001 passes the lower range test 0 ≤ index. -/
theorem word_sge_zero {w : BitVec 32} (h : w.toNat < 7001) : IntOp.cmpi .sge w 0#32 = 1#1 := by
  refine IntOp.cmpi_sge.2 ?_
  rw [word_toInt h]
  have h0 : (0#32 : BitVec 32).toInt = 0 := by decide
  omega

/-- A word below 7001 passes the upper range test index ≤ 7000. -/
theorem word_sle_last {w : BitVec 32} (h : w.toNat < 7001) : IntOp.cmpi .sle w 7000#32 = 1#1 := by
  refine IntOp.cmpi_sle.2 ?_
  rw [word_toInt h]
  have h0 : (7000#32 : BitVec 32).toInt = 7000 := by decide
  omega

/-! ### The index take_along_axis forms, and its range test -/

/-- The normalised index (label, or label + 7001 when negative) of an in-range label is the label. -/
theorem index_eq_label (lab : (⟨S4096, .i32⟩ : BufTy).Contents (Elt Ideal)) (hlab : Cert.CenterLoss.InRange lab)
    (j : S4096x1.Idx) : val_main_call0_v4 (F := Ideal) lab j = lab (idx_main_v14 j) := by
  rw [val_main_call0_v4_apply, val_main_call0_v1_apply, val_main_v14_apply, val_main_call0_v0_apply,
    val_main_call0_c_apply, word_slt_zero (label_lt lab hlab _), select_zero]

/-- The index array [4096, 1, 1] holds, at every position, a label word below 7001. -/
theorem index3_lt (lab : (⟨S4096, .i32⟩ : BufTy).Contents (Elt Ideal)) (hlab : Cert.CenterLoss.InRange lab)
    (i : S4096x1x1.Idx) : (val_main_call0_v5 (F := Ideal) lab i).toNat < 7001 := by
  rw [val_main_call0_v5_apply, index_eq_label lab hlab]
  exact label_lt lab hlab _

/-- Both range tests hold at every position: the conjunction is the true bit everywhere. -/
theorem inrange3_one (lab : (⟨S4096, .i32⟩ : BufTy).Contents (Elt Ideal)) (hlab : Cert.CenterLoss.InRange lab)
    (i : S4096x1x1.Idx) : val_main_call0_v11 (F := Ideal) lab i = 1#1 := by
  rw [val_main_call0_v11_apply, val_main_call0_v7_apply, val_main_call0_v10_apply, val_main_call0_v6_apply,
    val_main_call0_c_2_apply, val_main_call0_v9_apply, val_main_call0_v8_apply, val_main_call0_c_1_apply,
    word_sge_zero (index3_lt lab hlab i), word_sle_last (index3_lt lab hlab i)]
  decide

/-- A left fold by `and` from the true bit over true bits is the true bit. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- The range test reduced by `and` over its last axis (of extent one) is the true bit at every (row, 0). -/
theorem inrange_one (lab : (⟨S4096, .i32⟩ : BufTy).Contents (Elt Ideal)) (hlab : Cert.CenterLoss.InRange lab)
    (j : S4096x1.Idx) : val_main_call0_v12 (F := Ideal) lab j = 1#1 := by
  unfold val_main_call0_v12
  rw [Host.reduce_eq_foldl]
  exact foldl_andi_ones _ (inrange3_one lab hlab) _

/-! ### The batched gather, read at (row, 0) -/

/-- The gather's operand index at result index (R, 0): the batching axis carries the row R; the collapsed,
    start-indexed class axis carries the index word at (R, 0, 0) read signed and clamped into [0, 7000]. -/
theorem gather_operandIdx (idx : IVec S4096x1x1 32) (R : Fin 4096) :
    gather_S4096x7001_S4096x1x1_S4096x1_n_1_0_0_1_2_11.operandIdx (ix2 R (0 : Fin 1)) idx
      = ix2 R (⟨min (idx (ix3 R (0 : Fin 1) (0 : Fin 1))).toInt.toNat 7000, by omega⟩ : Fin 7001) := by
  funext a
  refine Fin.ext ?_
  match a with
  | ⟨0, _⟩ =>
    -- the batching axis: no start, no offset; the batch coordinate is the result's row
    show gather_S4096x7001_S4096x1x1_S4096x1_n_1_0_0_1_2_11.start (ix2 R (0 : Fin 1)) idx 0
        + gather_S4096x7001_S4096x1x1_S4096x1_n_1_0_0_1_2_11.batchCoord (ix2 R (0 : Fin 1)) 0
        + gather_S4096x7001_S4096x1x1_S4096x1_n_1_0_0_1_2_11.offCoord (ix2 R (0 : Fin 1)) 0 = R.val
    rw [GatherDims.start_batching _ _ _ _ (show (0 : Fin 2) ∈ gather_S4096x7001_S4096x1x1_S4096x1_n_1_0_0_1_2_11.operandBatchingDims from List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    -- the class axis: collapsed and start-indexed; no batch coordinate, no offset
    show gather_S4096x7001_S4096x1x1_S4096x1_n_1_0_0_1_2_11.start (ix2 R (0 : Fin 1)) idx 1
        + gather_S4096x7001_S4096x1x1_S4096x1_n_1_0_0_1_2_11.batchCoord (ix2 R (0 : Fin 1)) 1
        + gather_S4096x7001_S4096x1x1_S4096x1_n_1_0_0_1_2_11.offCoord (ix2 R (0 : Fin 1)) 1
        = min (idx (ix3 R (0 : Fin 1) (0 : Fin 1))).toInt.toNat 7000
    rw [GatherDims.batchCoord_eq_zero _ _ _ (show (1 : Fin 2) ∉ gather_S4096x7001_S4096x1x1_S4096x1_n_1_0_0_1_2_11.operandBatchingDims from by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4096x7001_S4096x1x1_S4096x1_n_1_0_0_1_2_11.startIndexMap from List.mem_singleton.mpr rfl)]
    have hsi : gather_S4096x7001_S4096x1x1_S4096x1_n_1_0_0_1_2_11.siIdx (ix2 R (0 : Fin 1))
        ⟨List.idxOf (1 : Fin 2) gather_S4096x7001_S4096x1x1_S4096x1_n_1_0_0_1_2_11.startIndexMap,
          List.idxOf_lt_length_iff.2 (List.mem_singleton.mpr rfl)⟩ = ix3 R (0 : Fin 1) (0 : Fin 1) := by
      funext b; refine Fin.ext ?_
      match b with
      | ⟨0, _⟩ => rfl
      | ⟨1, _⟩ => rfl
      | ⟨2, _⟩ => rfl
    rw [hsi]
    rfl

/-! ### The table of expanded squared distances, read at (R, L) -/

/-- ‖x_R‖², summed from the zero word and laid along the class axis. -/
theorem xsq_apply (x : (⟨S4096x512, .f32⟩ : BufTy).Contents (Elt Ideal)) (R : Fin 4096) (L : Fin 7001) :
    val_main_v6 (F := Ideal) x (ix2 R L) = Cert.CenterLoss.sqX x R := by
  rw [val_main_v6_apply, val_main_v2_apply, val_main_v1_apply]
  unfold Cert.CenterLoss.sqX
  refine congrArg₂ (· + ·) rfl (Finset.sum_congr rfl fun k _ => ?_)
  -- the row sum's k-th term sits at (R, k)
  have e : idx_main_v1 (idx_main_v2 (idx_main_v6 (ix2 R L))) k = ix2 R k :=
    funext fun a => Fin.ext (by match a with | ⟨0, _⟩ => rfl | ⟨1, _⟩ => rfl)
  rw [e, val_main_v0_apply]
  rfl

/-- ‖c_L‖², summed from the zero word and laid along the batch axis. -/
theorem csq_apply (c : (⟨S7001x512, .f32⟩ : BufTy).Contents (Elt Ideal)) (R : Fin 4096) (L : Fin 7001) :
    val_main_v7 (F := Ideal) c (ix2 R L) = Cert.CenterLoss.sqC c L := by
  rw [val_main_v7_apply, val_main_v5_apply, val_main_v4_apply]
  unfold Cert.CenterLoss.sqC
  refine congrArg₂ (· + ·) rfl (Finset.sum_congr rfl fun k _ => ?_)
  -- the row sum's k-th term sits at (L, k)
  have e : idx_main_v4 (idx_main_v5 (idx_main_v7 (ix2 R L))) k = ix2 L k :=
    funext fun a => Fin.ext (by match a with | ⟨0, _⟩ => rfl | ⟨1, _⟩ => rfl)
  rw [e, val_main_v3_apply]
  rfl

/-- ⟨x_R, c_L⟩: the product x · cᵀ at (R, L) contracts the feature axis of both. -/
theorem dot_apply (x : (⟨S4096x512, .f32⟩ : BufTy).Contents (Elt Ideal)) (c : (⟨S7001x512, .f32⟩ : BufTy).Contents (Elt Ideal))
    (R : Fin 4096) (L : Fin 7001) :
    val_main_v10 (F := Ideal) x c (ix2 R L) = Cert.CenterLoss.dotRow x c R L := by
  rw [val_main_v10_apply]
  unfold Cert.CenterLoss.dotRow
  refine Finset.sum_congr rfl fun k _ => ?_
  rw [val_main_v9_apply]
  -- the left factor sits at (R, k); the transposed right factor at (k, L) is the centre table at (L, k)
  have el : lidx_main_v10 (ix2 R L) k = ix2 R k :=
    funext fun a => Fin.ext (by match a with | ⟨0, _⟩ => rfl | ⟨1, _⟩ => rfl)
  have er : idx_main_v9 (ridx_main_v10 (ix2 R L) k) = ix2 L k :=
    funext fun a => Fin.ext (by match a with | ⟨0, _⟩ => rfl | ⟨1, _⟩ => rfl)
  rw [el, er]

/-- The table entry at (R, L) is the expanded squared distance of row R to centre L. -/
theorem dist_apply (x : (⟨S4096x512, .f32⟩ : BufTy).Contents (Elt Ideal)) (c : (⟨S7001x512, .f32⟩ : BufTy).Contents (Elt Ideal))
    (R : Fin 4096) (L : Fin 7001) :
    val_main_v13 (F := Ideal) x c (ix2 R L) = Cert.CenterLoss.dist x c R L := by
  rw [val_main_v13_apply, val_main_v8_apply, val_main_v12_apply, xsq_apply, csq_apply, dot_apply, val_main_v11_apply,
    val_main_cst_1_apply]
  rfl

/-! ### The entry taken from each row -/

/-- The index word at (R, 0, 0) is row R's label. -/
theorem index3_eq_label (lab : (⟨S4096, .i32⟩ : BufTy).Contents (Elt Ideal)) (hlab : Cert.CenterLoss.InRange lab)
    (R : Fin 4096) : val_main_call0_v5 (F := Ideal) lab (ix3 R (0 : Fin 1) (0 : Fin 1)) = lab (ix1 R) := by
  rw [val_main_call0_v5_apply, index_eq_label lab hlab]
  refine congrArg lab (funext fun a => Fin.ext ?_)
  match a with
  | ⟨0, _⟩ => show ((R.val * 1 + 0) * 1 + 0) / 1 = R.val; omega

/-- take_along_axis at (R, 0): the distance of row R to the centre its label names. -/
theorem taken_apply (x : (⟨S4096x512, .f32⟩ : BufTy).Contents (Elt Ideal)) (c : (⟨S7001x512, .f32⟩ : BufTy).Contents (Elt Ideal))
    (lab : (⟨S4096, .i32⟩ : BufTy).Contents (Elt Ideal)) (hlab : Cert.CenterLoss.InRange lab) (R : Fin 4096) :
    val_main_v15 (F := Ideal) x c lab (ix2 R (0 : Fin 1))
      = Cert.CenterLoss.dist x c R (Cert.CenterLoss.cls (lab (ix1 R))) := by
  rw [val_main_v15_apply, inrange_one lab hlab, select_one]
  -- the gathered entry: the table at (R, clamp of the index word), and that clamp is the class the label names
  have hL : (⟨min (val_main_call0_v5 (F := Ideal) lab (ix3 R (0 : Fin 1) (0 : Fin 1))).toInt.toNat 7000, by omega⟩ : Fin 7001)
      = Cert.CenterLoss.cls (lab (ix1 R)) := Fin.ext (by
    show min (val_main_call0_v5 (F := Ideal) lab (ix3 R (0 : Fin 1) (0 : Fin 1))).toInt.toNat 7000
      = min (lab (ix1 R)).toInt.toNat 7000
    rw [index3_eq_label lab hlab R])
  show val_main_v13 (F := Ideal) x c
      (gather_S4096x7001_S4096x1x1_S4096x1_n_1_0_0_1_2_11.operandIdx (ix2 R (0 : Fin 1)) (val_main_call0_v5 (F := Ideal) lab)) = _
  rw [gather_operandIdx, hL]
  exact dist_apply x c R _

/-- With every label in the class range the reference computes the centre loss. -/
theorem ref_eq_loss (x : (⟨S4096x512, .f32⟩ : BufTy).Contents (Elt Ideal)) (c : (⟨S7001x512, .f32⟩ : BufTy).Contents (Elt Ideal))
    (lab : (⟨S4096, .i32⟩ : BufTy).Contents (Elt Ideal)) (hlab : Cert.CenterLoss.InRange lab) :
    Cert.ReferenceIdeal.Read.val_main_v17 (F := Ideal) x c lab = Cert.CenterLoss.loss x c lab := by
  funext i
  -- the [4096, 1] index set is the batch rows
  have hsum : ∑ j : S4096x1.Idx, val_main_v15 (F := Ideal) x c lab j
      = ∑ R : Fin 4096, Cert.CenterLoss.dist x c R (Cert.CenterLoss.cls (lab (ix1 R))) := by
    rw [sum_idx2]
    refine Finset.sum_congr rfl fun R _ => ?_
    rw [Fin.sum_univ_one]
    exact taken_apply x c lab hlab R
  rw [val_main_v17_apply, val_main_v16_apply, hsum]
  rfl

end Cert.ReferenceIdeal.RefValue

end
-- ==== Proof.lean ====
/-
  The centre loss: a tiled kernel against the whole distance table.

  Both programs compute, for a batch x of 4096 rows of 512 features, 7001 centres c and one label per row, the mean
  over the rows of the expanded squared distance (‖x_R‖² + ‖c_L‖²) − 2·⟨x_R, c_L⟩ of the row to the centre L its
  label names.  The reference forms the whole [4096, 7001] table and takes one entry per row.  The kernel program
  never forms the table: a grid of 4 batch tiles × 8 class tiles multiplies a batch tile with a tile of 896 centres
  (the centres padded with zero rows to 7168), keeps from each row of the product only the column whose global index is
  the row's label — a select against a column iota, summed along the lanes — and accumulates that one value per row
  across the class tiles in a scratch column, copied out after the last tile; the norms, their gather at the labels,
  the combination and the mean are host lines after the call.  Over the extended reals a changed float format is the
  identity and the sum of one selected value and zeros is that value, so for labels in the class range [0, 7001) —
  the precondition: outside it the reference's take is out of range — the two results are the same number
  (`Cert.CenterLoss.loss`).  No law used needs the inputs finite.
-/
import proofs.«401125_j76209899700452_2_alg».proof.Defs
import proofs.«401125_j76209899700452_2_alg».proof.Proof.Gen.Kernel
import proofs.«401125_j76209899700452_2_alg».proof.Proof.Gen.Kernel.Skeleton
import proofs.«401125_j76209899700452_2_alg».proof.Proof.Gen.Kernel.Launch
import proofs.«401125_j76209899700452_2_alg».proof.Proof.Gen.Kernel.Points
import proofs.«401125_j76209899700452_2_alg».proof.Proof.Gen.Kernel.Frame
import proofs.«401125_j76209899700452_2_alg».proof.Proof.Gen.KernelIdeal
import proofs.«401125_j76209899700452_2_alg».proof.Proof.Gen.KernelIdeal.Skeleton
import proofs.«401125_j76209899700452_2_alg».proof.Proof.Gen.KernelIdeal.Launch
import proofs.«401125_j76209899700452_2_alg».proof.Proof.Gen.KernelIdeal.Points
import proofs.«401125_j76209899700452_2_alg».proof.Proof.Gen.KernelIdeal.Frame
import proofs.«401125_j76209899700452_2_alg».proof.Proof.Gen.ReferenceIdeal
import proofs.«401125_j76209899700452_2_alg».proof.Proof.Gen.Pre_finite_inputs
import proofs.«401125_j76209899700452_2_alg».proof.Proof.Gen.ReferenceIdeal.Run
import proofs.«401125_j76209899700452_2_alg».proof.Proof.Gen.ReferenceIdeal.Read
import proofs.«401125_j76209899700452_2_alg».proof.Proof.Labels
import proofs.«401125_j76209899700452_2_alg».proof.Proof.Final
import proofs.«401125_j76209899700452_2_alg».proof.Proof.RefLoss
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel program was rewritten for the reading over the extended reals. -/
theorem preserves : Cert.preserves_Kernel_KernelIdeal := trivial

/-- With the labels in the class range both programs end at the centre loss of the inputs. -/
theorem algebraic : Cert.algebraic_KernelIdeal_ReferenceIdeal := by
  intro m ρ m' ρ' hpre hagree
  have hlab : ∀ c : Dev Cert.KernelIdeal.nD, Cert.CenterLoss.InRange
      (m ((c.tc : Thread Cert.KernelIdeal.nD Cert.KernelIdeal.τ).loc Cert.KernelIdeal.main_arg2)) :=
    fun c => Cert.CenterLoss.inRange_of_pre _ _ _ (hpre c)
  refine ⟨fun c => Cert.CenterLoss.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.FrameValue.kernel_run m ρ hlab, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2]
  exact Cert.ReferenceIdeal.RefValue.ref_eq_loss _ _ _ (hlab c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
